-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_tau" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S64x256 : Shape := ⟨2, ![64, 256]⟩
abbrev S262144 : Shape := ⟨1, ![262144]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x256 .f32) (main_arg1 : FVec F S64x256 .f32) (main_arg2 : IVec S262144 32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_c_2 : IVec S_ 32 := constantI S_ 32 0#32
  let main_v9 : IVec S262144 32 := broadcastInDim S262144 ![] bcast_S_S262144 main_c_2
  let main_v10 : IVec S262144 1 := cmpi .sge main_arg2 main_v9
  let main_c_3 : IVec S_ 32 := constantI S_ 32 64#32
  let main_v11 : IVec S262144 32 := broadcastInDim S262144 ![] bcast_S_S262144 main_c_3
  let main_v12 : IVec S262144 1 := cmpi .slt main_arg2 main_v11
  let main_v13 : IVec S262144 1 := andi main_v10 main_v12
  let main_c_4 : IVec S_ 1 := constantI S_ 1 1#1
  let main_v14 : IVec S_ 1 := (fun x v => Host.reduce IntOp.andi x v reducesTo_S262144_S_d0 h_S_) main_v13 main_c_4
  let main_v15 : IVec S_ 1 := andi main_v8 main_v14
  main_v15
-- ==== Kernel.lean ====
abbrev S262144x256 : Shape := ⟨2, ![262144, 256]⟩
abbrev S64x256 : Shape := ⟨2, ![64, 256]⟩
abbrev S262144 : Shape := ⟨1, ![262144]⟩
abbrev S_ : Shape := ⟨0, ![]⟩
abbrev S64 : Shape := ⟨1, ![64]⟩
abbrev S64x1 : Shape := ⟨2, ![64, 1]⟩
abbrev S256x64 : Shape := ⟨2, ![256, 64]⟩
abbrev S2048x128 : Shape := ⟨2, ![2048, 128]⟩
abbrev S1x8192 : Shape := ⟨2, ![1, 8192]⟩
abbrev S4096x256 : Shape := ⟨2, ![4096, 256]⟩
abbrev S32x128 : Shape := ⟨2, ![32, 128]⟩
abbrev S1x128 : Shape := ⟨2, ![1, 128]⟩
abbrev S4096 : Shape := ⟨1, ![4096]⟩
abbrev S4096x1 : Shape := ⟨2, ![4096, 1]⟩
abbrev S4096x64 : Shape := ⟨2, ![4096, 64]⟩
abbrev S1 : Shape := ⟨1, ![1]⟩
abbrev S1x1 : Shape := ⟨2, ![1, 1]⟩
abbrev S64x128 : Shape := ⟨2, ![64, 128]⟩

abbrev nBuf : Space → Nat
  | .hbm => 32
  | .vmem => 7
  | .smem => 0
  | _ => 0

abbrev bufTy : (tb : Table) → Fin (tcTables nBuf tb) → BufTy
  | .hbm, ⟨0, _⟩ => ⟨S262144x256, .f32⟩
  | .hbm, ⟨1, _⟩ => ⟨S64x256, .f32⟩
  | .hbm, ⟨2, _⟩ => ⟨S262144, .i32⟩
  | .hbm, ⟨3, _⟩ => ⟨S64x256, .f32⟩
  | .hbm, ⟨4, _⟩ => ⟨S_, .f32⟩
  | .hbm, ⟨5, _⟩ => ⟨S64, .f32⟩
  | .hbm, ⟨6, _⟩ => ⟨S64x1, .f32⟩
  | .hbm, ⟨7, _⟩ => ⟨S64x1, .f32⟩
  | .hbm, ⟨8, _⟩ => ⟨S_, .f32⟩
  | .hbm, ⟨9, _⟩ => ⟨S64x1, .f32⟩
  | .hbm, ⟨10, _⟩ => ⟨S64x1, .f32⟩
  | .hbm, ⟨11, _⟩ => ⟨S64x256, .f32⟩
  | .hbm, ⟨12, _⟩ => ⟨S64x256, .f32⟩
  | .hbm, ⟨13, _⟩ => ⟨S256x64, .f32⟩
  | .hbm, ⟨14, _⟩ => ⟨S256x64, .bf16⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S262144, .i32⟩
  | .hbm, ⟨19, _⟩ => ⟨S262144, .i32⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S2048x128, .i32⟩
  | .hbm, ⟨24, _⟩ => ⟨S1x8192, .f32⟩
  | .hbm, ⟨25, _⟩ => ⟨S64x128, .f32⟩
  | .hbm, ⟨26, _⟩ => ⟨S64x1, .f32⟩
  | .hbm, ⟨27, _⟩ => ⟨S64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S256x64, .bf16⟩
  | .local _ .vmem, ⟨3, _⟩ => ⟨S32x128, .i32⟩
  | .local _ .vmem, ⟨4, _⟩ => ⟨S32x128, .i32⟩
  | .local _ .vmem, ⟨5, _⟩ => ⟨S1x128, .f32⟩
  | .local _ .vmem, ⟨6, _⟩ => ⟨S1x128, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S64x256_S64_d1 : S64x256.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x256_0_1 : S64x1.BroadcastsInDim S64x256 (![0, 1] : Fin 2 → Fin S64x256.rank)
  transposes_S64x256_S256x64_1_0 : S64x256.Transposes [1, 0] S256x64
  bitsLt_bf16_f32 : FTy.bits .bf16 < FTy.bits .f32
  bcast_S_S262144 : S_.BroadcastsInDim S262144 (![] : Fin 0 → Fin S262144.rank)
  shapeCasts_S262144_S2048x128 : S262144.ShapeCasts S2048x128
  inb_S4096x256_S4096x256_0_0 : ∀ a, (![0, 0] : Fin 2 → Nat) a + S4096x256.size a ≤ S4096x256.size a
  h_S4096x256 : 0 < S4096x256.numel
  reduces_S4096x256_S4096 : S4096x256.Reduces [1] S4096
  shapeCasts_S4096_S4096x1 : S4096.ShapeCasts S4096x1
  broadcasts_S4096x1_S4096x256 : S4096x1.Broadcasts S4096x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  iota_S4096x64_d1_w32 : S4096x64.Iotas .tc 32 [1]
  inb_S32x128_S32x128_0_0 : ∀ a, (![0, 0] : Fin 2 → Nat) a + S32x128.size a ≤ S32x128.size a
  h_S32x128 : 0 < S32x128.numel
  shapeCasts_S32x128_S32x128 : S32x128.ShapeCasts S32x128
  shapeCasts_S32x128_S4096x1 : S32x128.ShapeCasts S4096x1
  broadcasts_S4096x1_S4096x64 : S4096x1.Broadcasts S4096x64
  reduces_S4096x64_S4096 : S4096x64.Reduces [1] S4096
  reduces_S4096x1_S1 : S4096x1.Reduces [0] S1
  shapeCasts_S1_S1x1 : S1.ShapeCasts S1x1
  shapeCasts_S1x1_S1x1 : S1x1.ShapeCasts S1x1
  broadcasts_S1x1_S1x128 : S1x1.Broadcasts S1x128
  inb_S1x128_S1x128_0_0 : ∀ a, (![0, 0] : Fin 2 → Nat) a + S1x128.size a ≤ S1x128.size a
  h_S1x128 : 0 < S1x128.numel
  shapeCasts_S1x8192_S64x128 : S1x8192.ShapeCasts S64x128
  slices_S64x128_S64x1_0_0 : S64x128.Slices ![0, 0] S64x1
  shapeCasts_S64x1_S64 : S64x1.ShapeCasts S64
  reducesTo_S64_S_d0 : S64.ReducesTo [0] S_
  dot_S4096x256_S256x64_S4096x64_1_0_0_1_n_n_wf : DotDims.WF S4096x256 S256x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .bf16 = 32 ∨ (Rect.block (s := S256x64) S256x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S2048x128.size a
  hwx0_2 : ∀ i : grid0.Coords, EltTy.bits .i32 = 32 ∨ (Rect.block (s := S2048x128) S32x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x8192.size a
  hwx0_3 : ∀ i : grid0.Coords, EltTy.bits .f32 = 32 ∨ (Rect.block (s := S1x8192) S1x128.size (cc0_transform_3 i) (hinb0_3 i)).WholeWords (EltTy.packing .f32)

variable [Facts₀]

def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x256 : Shape := ⟨2, ![262144, 256]⟩
abbrev S64x256 : Shape := ⟨2, ![64, 256]⟩
abbrev S262144 : Shape := ⟨1, ![262144]⟩
abbrev S_ : Shape := ⟨0, ![]⟩
abbrev S262144x1 : Shape := ⟨2, ![262144, 1]⟩
abbrev S64 : Shape := ⟨1, ![64]⟩
abbrev S64x1 : Shape := ⟨2, ![64, 1]⟩
abbrev S262144x64 : Shape := ⟨2, ![262144, 64]⟩
abbrev S262144x1x1 : Shape := ⟨3, ![262144, 1, 1]⟩
abbrev S1 : Shape := ⟨1, ![1]⟩
abbrev S1x1x1 : Shape := ⟨3, ![1, 1, 1]⟩

abbrev nBuf : Space → Nat
  | .hbm => 70
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S64x256, .f32⟩
  | .hbm, ⟨2, _⟩ => ⟨S262144, .i32⟩
  | .hbm, ⟨3, _⟩ => ⟨S262144x256, .f32⟩
  | .hbm, ⟨4, _⟩ => ⟨S_, .f32⟩
  | .hbm, ⟨5, _⟩ => ⟨S262144, .f32⟩
  | .hbm, ⟨6, _⟩ => ⟨S262144x1, .f32⟩
  | .hbm, ⟨7, _⟩ => ⟨S262144x1, .f32⟩
  | .hbm, ⟨8, _⟩ => ⟨S_, .f32⟩
  | .hbm, ⟨9, _⟩ => ⟨S262144x1, .f32⟩
  | .hbm, ⟨10, _⟩ => ⟨S262144x1, .f32⟩
  | .hbm, ⟨11, _⟩ => ⟨S262144x256, .f32⟩
  | .hbm, ⟨12, _⟩ => ⟨S262144x256, .f32⟩
  | .hbm, ⟨13, _⟩ => ⟨S64x256, .f32⟩
  | .hbm, ⟨14, _⟩ => ⟨S_, .f32⟩
  | .hbm, ⟨15, _⟩ => ⟨S64, .f32⟩
  | .hbm, ⟨16, _⟩ => ⟨S64x1, .f32⟩
  | .hbm, ⟨17, _⟩ => ⟨S64x1, .f32⟩
  | .hbm, ⟨18, _⟩ => ⟨S_, .f32⟩
  | .hbm, ⟨19, _⟩ => ⟨S64x1, .f32⟩
  | .hbm, ⟨20, _⟩ => ⟨S64x1, .f32⟩
  | .hbm, ⟨21, _⟩ => ⟨S64x256, .f32⟩
  | .hbm, ⟨22, _⟩ => ⟨S64x256, .f32⟩
  | .hbm, ⟨23, _⟩ => ⟨S262144x64, .f32⟩
  | .hbm, ⟨24, _⟩ => ⟨S_, .f32⟩
  | .hbm, ⟨25, _⟩ => ⟨S262144x64, .f32⟩
  | .hbm, ⟨26, _⟩ => ⟨S262144x64, .f32⟩
  | .hbm, ⟨27, _⟩ => ⟨S262144x64, .f32⟩
  | .hbm, ⟨28, _⟩ => ⟨S262144x1, .i32⟩
  | .hbm, ⟨29, _⟩ => ⟨S_, .i32⟩
  | .hbm, ⟨30, _⟩ => ⟨S262144x1, .i32⟩
  | .hbm, ⟨31, _⟩ => ⟨S262144x1, .i1⟩
  | .hbm, ⟨32, _⟩ => ⟨S_, .i32⟩
  | .hbm, ⟨33, _⟩ => ⟨S262144x1, .i32⟩
  | .hbm, ⟨34, _⟩ => ⟨S262144x1, .i32⟩
  | .hbm, ⟨35, _⟩ => ⟨S262144x1, .i32⟩
  | .hbm, ⟨36, _⟩ => ⟨S262144x1x1, .i32⟩
  | .hbm, ⟨37, _⟩ => ⟨S1, .i32⟩
  | .hbm, ⟨38, _⟩ => ⟨S_, .i32⟩
  | .hbm, ⟨39, _⟩ => ⟨S262144x1x1, .i32⟩
  | .hbm, ⟨40, _⟩ => ⟨S262144x1x1, .i1⟩
  | .hbm, ⟨41, _⟩ => ⟨S1x1x1, .i32⟩
  | .hbm, ⟨42, _⟩ => ⟨S262144x1x1, .i32⟩
  | .hbm, ⟨43, _⟩ => ⟨S262144x1x1, .i1⟩
  | .hbm, ⟨44, _⟩ => ⟨S262144x1x1, .i1⟩
  | .hbm, ⟨45, _⟩ => ⟨S_, .i1⟩
  | .hbm, ⟨46, _⟩ => ⟨S262144x1, .i1⟩
  | .hbm, ⟨47, _⟩ => ⟨S262144x1, .f32⟩
  | .hbm, ⟨48, _⟩ => ⟨S_, .f32⟩
  | .hbm, ⟨49, _⟩ => ⟨S262144x1, .f32⟩
  | .hbm, ⟨50, _⟩ => ⟨S262144x1, .f32⟩
  | .hbm, ⟨51, _⟩ => ⟨S262144, .f32⟩
  | .hbm, ⟨52, _⟩ => ⟨S_, .f32⟩
  | .hbm, ⟨53, _⟩ => ⟨S262144, .f32⟩
  | .hbm, ⟨54, _⟩ => ⟨S_, .f32⟩
  | .hbm, ⟨55, _⟩ => ⟨S262144, .f32⟩
  | .hbm, ⟨56, _⟩ => ⟨S262144, .f32⟩
  | .hbm, ⟨57, _⟩ => ⟨S_, .f32⟩
  | .hbm, ⟨58, _⟩ => ⟨S262144, .f32⟩
  | .hbm, ⟨59, _⟩ => ⟨S262144, .f32⟩
  | .hbm, ⟨60, _⟩ => ⟨S262144, .f32⟩
  | .hbm, ⟨61, _⟩ => ⟨S_, .f32⟩
  | .hbm, ⟨62, _⟩ => ⟨S262144, .f32⟩
  | .hbm, ⟨63, _⟩ => ⟨S262144, .f32⟩
  | .hbm, ⟨64, _⟩ => ⟨S262144, .f32⟩
  | .hbm, ⟨65, _⟩ => ⟨S262144, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_cst : Ref sig .tc := ⟨.hbm, 48, rfl⟩
abbrev main_call0_v14 : Ref sig .tc := ⟨.hbm, 49, rfl⟩
abbrev main_v21 : Ref sig .tc := ⟨.hbm, 50, rfl⟩
abbrev main_v22 : Ref sig .tc := ⟨.hbm, 51, rfl⟩
abbrev main_cst_4 : Ref sig .tc := ⟨.hbm, 52, rfl⟩
abbrev main_v23 : Ref sig .tc := ⟨.hbm, 53, rfl⟩
abbrev main_cst_5 : Ref sig .tc := ⟨.hbm, 54, rfl⟩
abbrev main_v24 : Ref sig .tc := ⟨.hbm, 55, rfl⟩
abbrev main_v25 : Ref sig .tc := ⟨.hbm, 56, rfl⟩
abbrev main_cst_6 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_7 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_8 : Ref sig .tc := ⟨.hbm, 66, rfl⟩
abbrev main_v33 : Ref sig .tc := ⟨.hbm, 67, rfl⟩
abbrev main_cst_9 : Ref sig .tc := ⟨.hbm, 68, rfl⟩
abbrev main_v34 : Ref sig .tc := ⟨.hbm, 69, rfl⟩

abbrev nD : Nat := 1
abbrev τ : Topo := Topo.v7x

variable {F : FTy → Type} [FloatOps F]

class Facts₀ : Prop where
  reducesTo_S262144x256_S262144_d1 : S262144x256.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x256_0_1 : S262144x1.BroadcastsInDim S262144x256 (![0, 1] : Fin 2 → Fin S262144x256.rank)
  reducesTo_S64x256_S64_d1 : S64x256.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x256_0_1 : S64x1.BroadcastsInDim S64x256 (![0, 1] : Fin 2 → Fin S64x256.rank)
  bcast_S_S262144x64 : S_.BroadcastsInDim S262144x64 (![] : Fin 0 → Fin S262144x64.rank)
  shapeCasts_S262144x1_S262144x1x1 : S262144x1.ShapeCasts S262144x1x1
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  shapeCasts_S262144x1_S262144 : S262144x1.ShapeCasts S262144
  reducesTo_S262144x64_S262144_d1 : S262144x64.ReducesTo [1] S262144
  bcast_S_S262144 : S_.BroadcastsInDim S262144 (![] : Fin 0 → Fin S262144.rank)
  reducesTo_S262144_S_d0 : S262144.ReducesTo [0] S_
  dot_S262144x256_S64x256_S262144x64_1_1_0_0_n_n_wf : DotDims.WF S262144x256 S64x256 S262144x64 [1] [1] [0] [0] [] []
  gather_S262144x64_S262144x1x1_S262144x1_n_1_0_0_1_2_11_wf : GatherDims.WF S262144x64 S262144x1x1 S262144x1 [] [1] [0] [1] [0] 2 ![1, 1]

variable [Facts₀]

def dot_S262144x256_S64x256_S262144x64_1_1_0_0_n_n : DotDims S262144x256 S64x256 S262144x64 where
  lhsContracting := [1]
  rhsContracting := [1]
  lhsNonContracting := [0]
  rhsNonContracting := [0]
  lhsBatch := []
  rhsBatch := []
  wf := dot_S262144x256_S64x256_S262144x64_1_1_0_0_n_n_wf
def gather_S262144x64_S262144x1x1_S262144x1_n_1_0_0_1_2_11 : GatherDims S262144x64 S262144x1x1 S262144x1 where
  offsetDims := []
  collapsedSliceDims := [1]
  operandBatchingDims := [0]
  startIndicesBatchingDims := [0]
  startIndexMap := [1]
  indexVectorDim := 2
  sliceSizes := ![1, 1]
  wf := gather_S262144x64_S262144x1x1_S262144x1_n_1_0_0_1_2_11_wf

class Facts : Prop extends Facts₀ where

variable [Facts]
-- ==== Proof.PreDecode.lean ====
/-
  What the precondition says of the inputs: every feature and prototype entry is a real number, every label is one of
  the sixty-four classes.
-/
import proofs.«421093_j80650895884988_3_alg».proof.Pre_finite_inputs
import proofs.«421093_j80650895884988_3_alg».proof.Proof.Gen.Pre_finite_inputs
import Idealize.ShloMosaic.PureOps.Ideal.Laws
import Idealize.ShloMosaic.Lib.ReduceAll
import Idealize.ShloMosaic.Lib.ValueIdx
import Idealize.ShloMosaic.Lib.IdealHost
import Idealize.ShloMosaic.Lib.ValueLayout
import Idealize.ShloMosaic.Lib.StableHlo.Predicate

noncomputable section

namespace Cert.Nce

open Idealize.ShloMosaic Idealize.ShloMosaic.ValueIdx Cert.Pre_finite_inputs

/-- The single-precision pattern `0x7F800000` is plus infinity. -/
theorem ofBits_inf_f32 : Ideal.ofBits .f32 0x7F800000#32 = (⊤ : EReal) := by
  simp [Ideal.ofBits, Ideal.ieee]

/-- An extended real whose absolute value `max x (-x)` is strictly below plus infinity is a real number. -/
theorem real_of_abs_lt_top (x : EReal) (h : Ideal.cmp .olt (max x (-x)) ⊤ = 1#1) : ∃ r : ℝ, x = (r : EReal) := by
  induction x using EReal.rec with
  | bot => exfalso; revert h; simp [Ideal.cmp]
  | coe r => exact ⟨r, rfl⟩
  | top => exfalso; revert h; simp [Ideal.cmp]

/-- One entry of the comparison `|x| < +inf` being one says that entry of `x` is real. -/
theorem float_elem {T : Shape} (hb : S_.BroadcastsInDim T ![]) (x : FVec Ideal T .f32) (i : T.Idx)
    (h : cmpf .olt (Host.absf x) (broadcastInDim T ![] hb (constant (F := Ideal) S_ .f32 0x7F800000#32)) i = 1#1) :
    ∃ r : ℝ, x i = (r : EReal) := by
  rw [cmpf_apply, broadcastInDim_scalar_apply, constant_apply, ofBits_inf_f32] at h
  exact real_of_abs_lt_top (x i) h

/-- A 32-bit word that is signed-nonnegative and signed-below 64 is the word of a number below 64. -/
theorem word_lt_64 (v : BitVec 32) (h1 : (0#32).toInt ≤ v.toInt) (h2 : v.toInt < (64#32).toInt) :
    ∃ l : Fin 64, v = BitVec.ofNat 32 l.val := by
  have e0 : (0#32).toInt = 0 := by decide
  have e64 : (64#32).toInt = 64 := by decide
  rw [e0] at h1; rw [e64] at h2
  have hv := v.isLt
  rw [BitVec.toInt_eq_toNat_cond] at h1 h2
  have hlt : v.toNat < 64 := by
    split at h1 <;> split at h2 <;> omega
  refine ⟨⟨v.toNat, hlt⟩, BitVec.eq_of_toNat_eq ?_⟩
  show v.toNat = (BitVec.ofNat 32 v.toNat).toNat
  rw [BitVec.toNat_ofNat]; omega

/-- One entry of `0 ≤ x ∧ x < 64` (signed) being one says that entry of `x` is a class number. -/
theorem label_elem {T : Shape} (hb : S_.BroadcastsInDim T ![]) (x : IVec T 32) (i : T.Idx)
    (h : andi (cmpi .sge x (broadcastInDim T ![] hb (constantI S_ 32 0#32)))
              (cmpi .slt x (broadcastInDim T ![] hb (constantI S_ 32 64#32))) i = 1#1) :
    ∃ l : Fin 64, x i = BitVec.ofNat 32 l.val := by
  change IntOp.andi (IntOp.cmpi .sge (x i) (broadcastInDim T ![] hb (constantI S_ 32 0#32) i))
      (IntOp.cmpi .slt (x i) (broadcastInDim T ![] hb (constantI S_ 32 64#32) i)) = 1#1 at h
  rw [broadcastInDim_scalar_apply, broadcastInDim_scalar_apply, constantI_apply, constantI_apply] at h
  obtain ⟨h1, h2⟩ := IntOp.andi_eq_one.1 h
  exact word_lt_64 (x i) (IntOp.cmpi_sge.1 h1) (IntOp.cmpi_slt.1 h2)

/-- The scalar shape has exactly one index. -/
instance : Subsingleton S_.Idx := ⟨fun a b => funext fun d => d.elim0⟩

/-- The printed precondition, all ones, gives: each float entry is real, each label word is a class number. -/
theorem of_pre [Cert.Pre_finite_inputs.Facts]
    (x0 : FVec Ideal S262144x256 .f32) (x1 : FVec Ideal S64x256 .f32) (x2 : IVec S262144 32)
    (h : Cert.Pre_finite_inputs.fn (F := Ideal) x0 x1 x2 = fun _ => 1#1) :
    (∀ i, ∃ r : ℝ, x0 i = (r : EReal)) ∧ (∀ i, ∃ r : ℝ, x1 i = (r : EReal))
      ∧ (∀ i, ∃ l : Fin 64, x2 i = BitVec.ofNat 32 l.val) := by
  have h0 := congrFun h ValueIdx.ix0
  dsimp only [Cert.Pre_finite_inputs.fn] at h0
  obtain ⟨hf, hl⟩ := IntOp.andi_eq_one.1 h0
  obtain ⟨ha, hb⟩ := IntOp.andi_eq_one.1 hf
  refine ⟨fun i => ?_, fun i => ?_, fun i => ?_⟩
  · exact float_elem _ x0 i (Host.reduce_andi_all _ _ _ _ _ ha i)
  · exact float_elem _ x1 i (Host.reduce_andi_all _ _ _ _ _ hb i)
  · exact label_elem _ x2 i (Host.reduce_andi_all _ _ _ _ _ hl i)

end Cert.Nce

end
-- ==== Proof.Spec.lean ====
/-
  The loss both programs compute, written once over plain index types.

  A feature row `x` and each prototype row `p` are scaled by their Euclidean norm floored at a tiny constant;
  the similarity of `x` to `p` is the inner product of the scaled rows over the temperature; a row's loss is
  `-log ((e_l + ε) / (Σ_k e_k + ε) + ε)` with `e_k` the exponential of the similarity to prototype `k` and `l`
  the row's label; the result is the mean of the rows' losses.

  Two spellings of a row's loss are stated: the one that divides by the temperature, picks the labelled exponential
  and negates (`rowLoss`), and the one that multiplies by the temperature's reciprocal, caps the similarity at eighty,
  sums the exponentials under the label's indicator and subtracts from zero (`rowLossCapped`). That they agree on real
  rows is the mathematics of this certificate (Proof/RowMath.lean).
-/
import Idealize.ShloMosaic.PureOps.Ideal.Laws

noncomputable section

namespace Cert.Nce

open Idealize.ShloMosaic

/-- The norm's floor, `f32 1e-12`. -/
def tiny : EReal := Ideal.ofBits .f32 0x2B8CBCCC#32
/-- The loss's `ε`, `f32 1e-8`. -/
def eps : EReal := Ideal.ofBits .f32 0x322BCC77#32
/-- The temperature, `f32 0.1`. -/
def tau : EReal := Ideal.ofBits .f32 0x3DCCCCCD#32
/-- The cap on a similarity, `80`. -/
def cap : EReal := Ideal.ofBits .f32 0x42A00000#32
/-- The number of rows, `262144`. -/
def nrows : EReal := Ideal.ofBits .f32 0x48800000#32
/-- The temperature's reciprocal as an exact rational: `1 / (13421773 / 134217728)`. -/
def invTau : EReal := ((134217728 / 13421773 : ℝ) : EReal)

/-- A row's Euclidean norm, floored at `tiny`. -/
def floorNorm {n : ℕ} (x : Fin n → EReal) : EReal := max (Ideal.sqrt (∑ d, x d * x d)) tiny

/-- A row scaled by its floored norm. -/
def unitRow {n : ℕ} (x : Fin n → EReal) (d : Fin n) : EReal := Ideal.div (x d) (floorNorm x)

/-- The inner product of two rows. -/
def dot {n : ℕ} (a b : Fin n → EReal) : EReal := ∑ d, a d * b d

/-- A row's loss, dividing by the temperature and picking the labelled exponential. `a` is the scaled feature row,
    `q k` the scaled prototype row `k`. -/
def rowLoss {n K : ℕ} (a : Fin n → EReal) (q : Fin K → Fin n → EReal) (l : Fin K) : EReal :=
  -Ideal.log (Ideal.div (Ideal.exp (Ideal.div (dot a (q l)) tau) + eps)
      ((∑ k, Ideal.exp (Ideal.div (dot a (q k)) tau)) + eps) + eps)

/-- A row's loss, multiplying by the reciprocal, capping, summing under the label's indicator, subtracting from zero. -/
def rowLossCapped {n K : ℕ} (a : Fin n → EReal) (q : Fin K → Fin n → EReal) (l : Fin K) : EReal :=
  0 - Ideal.log (Ideal.div ((∑ k, if k = l then Ideal.exp (min (dot a (q k) * invTau) cap) else 0) + eps)
      ((∑ k, Ideal.exp (min (dot a (q k) * invTau) cap)) + eps) + eps)

/-- The mean of the rows' losses: their sum over the number of rows. -/
def meanOf {B : ℕ} (loss : Fin B → EReal) : EReal := Ideal.div (∑ b, loss b) nrows

end Cert.Nce

end
-- ==== Proof.KerArray.lean ====
/-
  From the kernel's blocks to its program's result.

  The kernel runs at sixty-four grid points. At point `t` it reads tile `t` of the features (4096 rows), the whole
  array of scaled prototypes, and tile `t` of the labels (32 rows of 128), and stores one block of 128 lanes into
  columns `128 t … 128 t + 127` of a single output row. The blocks tile that row, so after the run the row is one
  function of its column: the lane `column mod 128` of what the body stores at point `column / 128`. The operations
  after the kernel view the row as 64 × 128, keep lane 0 of each tile, add the sixty-four entries and divide by the
  number of rows.
-/
import proofs.«421093_j80650895884988_3_alg».proof.Proof.Gen.KernelIdeal.Frame
import proofs.«421093_j80650895884988_3_alg».proof.Proof.Spec
import Idealize.ShloMosaic.Lib.ValueIdx
import Idealize.ShloMosaic.Lib.ValueIdxRank1
import Idealize.ShloMosaic.Lib.ValueLayout
import Idealize.ShloMosaic.Lib.ValueIdxCoords
import Idealize.ShloMosaic.Lib.IdealHost
import Idealize.ShloMosaic.Lib.Pipeline.Value
import Idealize.ShloMosaic.Lib.StableHlo.Run
import Idealize.ShloMosaic.PureOps.Ideal.Laws

noncomputable section

namespace Cert.Nce

open Idealize.ShloMosaic Idealize.ShloMosaic.ValueIdx Idealize.ShloMosaic.TcCoe Idealize.SL.Sem Cert.KernelIdeal Cert.KernelIdeal.Gen
open Idealize.ShloMosaic.Pipeline (Dat)

variable (m : (ℓ : Loc nD τ sig) → Buf (Elt Ideal) ℓ)

/-! ## The index maps, decided over the grid -/

/-- The feature and label windows walk their arrays' rows with the grid point, the prototype window stays, the
    output window walks its one row's columns. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val :=
  (by decide +kernel : ∀ t : Fin grid0.N, _)

/-- The grid has sixty-four points. -/
theorem lt_64 (t : Fin cfg0.N) : t.val < 64 := by
  have h := t.isLt
  have e : cfg0.N = 64 := N_0
  omega

/-! ## The input blocks at a point -/

/-- Tile `t` of the features: rows `4096 t … 4096 t + 4095`. -/
theorem blk0 (c : Dev nD) (t : Fin cfg0.N) (r : Fin 4096) (d : Fin 256) (ht : 4096 * t.val + r.val < 262144) :
    iblk m c 0 t (ix2 r d) = (V m c main_arg0 : S262144x256.Idx → EReal) (ix2 ⟨4096 * t.val + r.val, ht⟩ d) := by
  obtain ⟨e0, e1, -⟩ := idx_facts t
  show V m c main_arg0 (((cfg0.win 0).blk t).view.emb (ix2 r d)) = _
  refine congrArg (V m c main_arg0) (funext fun a => Fin.ext ?_)
  match a with
  | ⟨0, _⟩ => show win0_0.index t (0 : Fin 2) * 4096 + 1 * r.val = 4096 * t.val + r.val; omega
  | ⟨1, _⟩ => show win0_0.index t (1 : Fin 2) * 256 + 1 * d.val = d.val; omega

/-- The prototype window's block is its whole array at every point. -/
theorem blk1 (c : Dev nD) (t : Fin cfg0.N) (d : Fin 256) (k : Fin 64) :
    iblk m c 1 t (ix2 d k) = (V m c main_v9 : S256x64.Idx → EReal) (ix2 d k) := by
  obtain ⟨-, -, e0, e1, -⟩ := idx_facts t
  show V m c main_v9 (((cfg0.win 1).blk t).view.emb (ix2 d k)) = _
  refine congrArg (V m c main_v9) (funext fun a => Fin.ext ?_)
  match a with
  | ⟨0, _⟩ => show win0_1.index t (0 : Fin 2) * 256 + 1 * d.val = d.val; omega
  | ⟨1, _⟩ => show win0_1.index t (1 : Fin 2) * 64 + 1 * k.val = k.val; omega

/-- Tile `t` of the labels: rows `32 t … 32 t + 31` of the 128-wide layout. -/
theorem blk2 (c : Dev nD) (t : Fin cfg0.N) (a : Fin 32) (b : Fin 128) (ht : 32 * t.val + a.val < 2048) :
    iblk m c 2 t (ix2 a b) = (V m c main_v11 : S2048x128.Idx → BitVec 32) (ix2 ⟨32 * t.val + a.val, ht⟩ b) := by
  obtain ⟨-, -, -, -, e0, e1, -⟩ := idx_facts t
  show V m c main_v11 (((cfg0.win 2).blk t).view.emb (ix2 a b)) = _
  refine congrArg (V m c main_v11) (funext fun x => Fin.ext ?_)
  match x with
  | ⟨0, _⟩ => show win0_2.index t (0 : Fin 2) * 32 + 1 * a.val = 32 * t.val + a.val; omega
  | ⟨1, _⟩ => show win0_2.index t (1 : Fin 2) * 128 + 1 * b.val = b.val; omega

/-! ## The output array after the run -/

/-- The grid point whose block holds column `i 1` of the output row: the column's quotient by 128. -/
def tileOf (i : S1x8192.Idx) : Fin cfg0.N :=
  ⟨(i 1).val / 128, by have h := idx2_lt1 i; have e : cfg0.N = 64 := N_0; omega⟩

/-- The output row as one function of its index: at column `128 t + q`, lane `q` of what the body stores at point `t`. -/
def tileOut (c : Dev nD) (i : S1x8192.Idx) : EReal :=
  out0_3 (F := Ideal) (iblk m c 0 (tileOf i)) (iblk m c 1 (tileOf i)) (iblk m c 2 (tileOf i))
    (ix2 (0 : Fin 1) ⟨(i 1).val % 128, Nat.mod_lt _ (by norm_num)⟩)

theorem tileOut_of (c : Dev nD) (i : S1x8192.Idx) (t : Fin cfg0.N) (q : Fin 128) (ht : (i 1).val = 128 * t.val + q.val) :
    tileOut m c i = out0_3 (F := Ideal) (iblk m c 0 t) (iblk m c 1 t) (iblk m c 2 t) (ix2 (0 : Fin 1) q) := by
  have e : tileOf i = t := Fin.ext (by show (i 1).val / 128 = t.val; have := q.isLt; omega)
  subst e
  have hv : (tileOf i).val = (i 1).val / 128 := rfl
  unfold tileOut
  exact congrArg _ (congrArg (ix2 (0 : Fin 1)) (Fin.ext (by show (i 1).val % 128 = q.val; have := q.isLt; omega)))

/-- What point `t` writes back is its block of `tileOut`. -/
theorem flushed3_eq (c : Dev nD) (t : Fin cfg0.N) :
    (dats m 0 c).flushed 3 t = ((cfg0.win 3).blk t).view.read (Elt Ideal) (tileOut m c) := by
  show (cfg0.win 3).cut (grid0.coords t) ((dats m 0 c).after 3 t) = _
  rw [after0_3]
  obtain ⟨-, -, -, -, -, -, e0, e1⟩ := idx_facts t
  funext y
  obtain ⟨p, q, rfl⟩ : ∃ (p : Fin 1) (q : Fin 128), y = ix2 p q := ⟨y 0, y 1, eq_ix2 y⟩
  show out0_3 (F := Ideal) (iblk m c 0 t) (iblk m c 1 t) (iblk m c 2 t) (ix2 p q)
      = tileOut m c (((cfg0.win 3).blk t).view.emb (ix2 p q))
  have hp : p = 0 := Subsingleton.elim _ _
  subst hp
  refine (tileOut_of m c _ t q ?_).symm
  show win0_3.index t (1 : Fin 2) * 128 + 1 * q.val = 128 * t.val + q.val
  omega

/-- An index of the output row is in point `t`'s block iff each coordinate is in the block's range on its axis. -/
theorem mem_blk3 (t : Fin cfg0.N) (i : S1x8192.Idx) :
    i ∈ ((cfg0.win 3).blk t).view.set ↔ ∀ a : Fin 2, win0_3.index t a * S1x128.size a ≤ (i a).val ∧ (i a).val < win0_3.index t a * S1x128.size a + S1x128.size a := by
  show i ∈ ((View.whole main_v12).slice (win0_3.rect t)).set ↔ _
  rw [View.set_slice_whole, Rect.mem_set_unit]
  exact Iff.rfl

/-- Every column is in the block of its quotient by 128. -/
theorem cover3 (i : S1x8192.Idx) : ∃ t : Fin cfg0.N, (cfg0.win 3).flush t = true ∧ i ∈ ((cfg0.win 3).blk t).view.set := by
  refine ⟨tileOf i, flush0_3 _, ?_⟩
  obtain ⟨-, -, -, -, -, -, e0, e1⟩ := idx_facts (tileOf i)
  have hv : (tileOf i).val = (i 1).val / 128 := rfl
  have h0 : (i 0).val < 1 := idx2_lt0 i
  rw [mem_blk3]
  intro a
  match a with
  | ⟨0, _⟩ => show win0_3.index (tileOf i) (0 : Fin 2) * 1 ≤ (i 0).val ∧ (i 0).val < win0_3.index (tileOf i) (0 : Fin 2) * 1 + 1; omega
  | ⟨1, _⟩ => show win0_3.index (tileOf i) (1 : Fin 2) * 128 ≤ (i 1).val ∧ (i 1).val < win0_3.index (tileOf i) (1 : Fin 2) * 128 + 128; omega

/-- The output row after the run is `tileOut`. -/
theorem final3 (c : Dev nD) : (dats m 0 c).arrAt 3 cfg0.N = tileOut m c :=
  (dats m 0 c).arrAt_eq_of_cover 3 (tileOut m c) (fun t _ => flushed3_eq m c t) (cover3)

/-! ## The host operations after the kernel -/

/-- The output row as the operations after the kernel find it. -/
theorem exit_v12 (c : Dev nD) :
    Pipeline.withArrays (cfgs 0).spec c (V0 m c) (fun w => (dats m 0 c).arrAt w (cfgs 0).N) (Proc.devRef .tc main_v12)
      = tileOut m c :=
  (Pipeline.withArrays_arr spec0 launch0.win.arr_inj c _ _ 3).trans (final3 m c)

/-- Lane 0 of tile `t`, traced through the reshape to 64 × 128, the slice of column 0 and the reshape to 64 entries. -/
theorem lane0 (T : S1x8192.Idx → EReal) (t : Fin 64) :
    shapeCast S64 (extractStridedSlice S64x1 ![0, 0] (shapeCast S64x128 T shapeCasts_S1x8192_S64x128) slices_S64x128_S64x1_0_0)
        shapeCasts_S64x1_S64 (ix1 t)
      = T (ix2 (0 : Fin 1) ⟨128 * t.val, by have := t.isLt; omega⟩) := by
  have ht := t.isLt
  rw [shapeCast_apply _ _ (ix1 t) (ix2 t (0 : Fin 1)) (by
    rw [Shape.rowMajor_val_two, Shape.rowMajor_val_one]
    show t.val * 1 + 0 = t.val
    omega)]
  rw [extractStridedSlice_apply _ _ _ (ix2 t (0 : Fin 1)) (ix2 t (0 : Fin 128)) (fun a => by
    match a with
    | ⟨0, _⟩ => show t.val = 0 + t.val; omega
    | ⟨1, _⟩ => show (0 : ℕ) = 0 + 0; rfl)]
  exact shapeCast_apply _ _ (ix2 t (0 : Fin 128)) (ix2 (0 : Fin 1) ⟨128 * t.val, by omega⟩) (by
    rw [Shape.rowMajor_val_two, Shape.rowMajor_val_two]
    show 0 * 8192 + 128 * t.val = t.val * 128 + 0
    omega)

/-- The kernel program's result: the sum over the tiles of lane 0 of each tile's stored block, over the number of rows. -/
theorem tail_value (c : Dev nD) (i : S_.Idx) :
    (Pipeline.afterTail₀ cfgs (dats m) 0 (V0 m) [hostOps1] c main_v17 : S_.Idx → EReal) i
      = Ideal.div (∑ t : Fin 64, tileOut m c (ix2 (0 : Fin 1) ⟨128 * t.val, by have := t.isLt; omega⟩)) nrows := by
  have e : (Pipeline.afterTail₀ cfgs (dats m) 0 (V0 m) [hostOps1] c main_v17 : S_.Idx → EReal)
      = Host.divf (F := Ideal)
          (Host.reduceAdd (F := Ideal)
            (shapeCast S64 (extractStridedSlice S64x1 ![0, 0] (shapeCast S64x128 (tileOut m c) shapeCasts_S1x8192_S64x128)
              slices_S64x128_S64x1_0_0) shapeCasts_S64x1_S64)
            (constant (F := Ideal) S_ .f32 0x00000000#32) reducesTo_S64_S_d0 h_S_)
          (constant (F := Ideal) S_ .f32 0x48800000#32) := by
    unfold Pipeline.afterTail₀
    show StableHlo.after hostOps1 _ (Proc.devRef .tc main_v17) = _
    after_results
    rw [exit_v12]
    rfl
  rw [e, hostDivf_apply, hostReduceAdd_apply, Ideal.hostReduceAdd_total _ (fun b => b.elim0), constant_apply, constant_apply,
    Ideal.ofBits_zero_f32, zero_add]
  show Ideal.div _ (Ideal.ofBits .f32 0x48800000#32) = Ideal.div _ nrows
  refine congrArg (fun s => Ideal.div s (Ideal.ofBits .f32 0x48800000#32)) ?_
  refine Fintype.sum_equiv (idxEquiv1 (n := 64)) _ _ fun j => ?_
  obtain ⟨t, rfl⟩ : ∃ t : Fin 64, j = ix1 t := ⟨j 0, eq_ix1 j⟩
  exact lane0 (tileOut m c) t

end Cert.Nce

end
-- ==== Proof.RowMath.lean ====
/-
  The two spellings of a row's loss agree on real rows.

  A real row scaled by its floored norm is a real row whose squares sum to at most one, so the inner product of two
  such rows is a real number at most one. Times the temperature's reciprocal (a little over ten) it stays below the
  cap of eighty, so the cap never binds; and multiplying by the reciprocal is dividing by the temperature. Both
  spellings then exponentiate the same similarities; the indicator sum picks the labelled exponential, and
  subtracting from zero is negating.
-/
import proofs.«421093_j80650895884988_3_alg».proof.Proof.Spec

noncomputable section

namespace Cert.Nce

open Idealize.ShloMosaic

/-! ### The constants' values -/

/-- The norm's floor denotes a positive real, `9223372 · 2⁻⁶³`. -/
theorem tiny_val : tiny = ((9223372 * (2 : ℝ) ^ (-63 : ℤ) : ℝ) : EReal) := by
  unfold tiny
  simp [Ideal.ofBits, Ideal.ieee, -EReal.coe_mul]

/-- The norm's floor is a positive real. -/
theorem tiny_pos : ∃ t : ℝ, 0 < t ∧ tiny = ((t : ℝ) : EReal) :=
  ⟨9223372 * (2 : ℝ) ^ (-63 : ℤ), by positivity, tiny_val⟩

/-- The temperature denotes the rational `13421773 / 2²⁷`. -/
theorem tau_val : tau = ((13421773 / 134217728 : ℝ) : EReal) := by
  unfold tau
  simp [Ideal.ofBits, Ideal.ieee, -EReal.coe_mul]
  norm_num

/-- The cap denotes `80`. -/
theorem cap_val : cap = ((80 : ℝ) : EReal) := by
  unfold cap
  simp [Ideal.ofBits, Ideal.ieee, -EReal.coe_mul]
  norm_num

/-! ### Sums of real numbers inside the extended reals -/

/-- A finite sum of coerced reals is the coerced sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The inner product of two real rows is the coerced real inner product. -/
theorem dot_coe {n : ℕ} (a b : Fin n → ℝ) :
    dot (fun d => ((a d : ℝ) : EReal)) (fun d => ((b d : ℝ) : EReal)) = ((∑ d, a d * b d : ℝ) : EReal) := by
  unfold dot
  rw [← coe_sum]
  simp only [EReal.coe_mul]

/-! ### A scaled real row -/

/-- The floored norm of a real row is the larger of its Euclidean norm and the floor, a real number. -/
theorem floorNorm_coe {n : ℕ} (x : Fin n → ℝ) {t : ℝ} (ht : tiny = ((t : ℝ) : EReal)) :
    floorNorm (fun d => ((x d : ℝ) : EReal)) = ((max (Real.sqrt (∑ d, x d * x d)) t : ℝ) : EReal) := by
  unfold floorNorm
  have h : (∑ d, ((x d : ℝ) : EReal) * ((x d : ℝ) : EReal)) = ((∑ d, x d * x d : ℝ) : EReal) := by
    rw [← coe_sum]
    simp only [EReal.coe_mul]
  have hnn : ¬ (∑ d, x d * x d) < 0 := not_lt.mpr (Finset.sum_nonneg fun d _ => mul_self_nonneg (x d))
  rw [h, Ideal.sqrt_coe, if_neg hnn, ht]
  exact (EReal.coe_strictMono.monotone.map_max).symm

/-- A real row scaled by its floored norm is a real row whose squares sum to at most one. -/
theorem unitRow_coe {n : ℕ} (x : Fin n → ℝ) :
    ∃ a : Fin n → ℝ, (∀ d, unitRow (fun d => ((x d : ℝ) : EReal)) d = ((a d : ℝ) : EReal)) ∧
      ∑ d, a d ^ 2 ≤ 1 := by
  obtain ⟨t, ht0, ht⟩ := tiny_pos
  have hnn : 0 ≤ ∑ d, x d * x d := Finset.sum_nonneg fun d _ => mul_self_nonneg (x d)
  have hm0 : 0 < max (Real.sqrt (∑ d, x d * x d)) t := lt_of_lt_of_le ht0 (le_max_right _ _)
  refine ⟨fun d => x d / max (Real.sqrt (∑ d, x d * x d)) t, fun d => ?_, ?_⟩
  · unfold unitRow
    rw [floorNorm_coe x ht, Ideal.div_coe hm0.ne', ← EReal.coe_mul, mul_one_div]
  · have hsum : ∑ d, (x d / max (Real.sqrt (∑ d, x d * x d)) t) ^ 2
        = (∑ d, x d * x d) / (max (Real.sqrt (∑ d, x d * x d)) t) ^ 2 := by
      rw [Finset.sum_div]
      exact Finset.sum_congr rfl fun d _ => by rw [div_pow, sq (x d)]
    rw [hsum, div_le_one (pow_pos hm0 2)]
    calc ∑ d, x d * x d = Real.sqrt (∑ d, x d * x d) ^ 2 := (Real.sq_sqrt hnn).symm
      _ ≤ (max (Real.sqrt (∑ d, x d * x d)) t) ^ 2 :=
          pow_le_pow_left₀ (Real.sqrt_nonneg _) (le_max_left _ _) 2

/-! ### The similarity of two scaled rows -/

/-- Two real rows whose squares each sum to at most one have inner product at most one: `2ab ≤ a² + b²` termwise. -/
theorem sum_mul_le_one {n : ℕ} (a b : Fin n → ℝ) (ha : ∑ d, a d ^ 2 ≤ 1) (hb : ∑ d, b d ^ 2 ≤ 1) :
    ∑ d, a d * b d ≤ 1 := by
  have h : ∑ d, 2 * (a d * b d) ≤ ∑ d, (a d ^ 2 + b d ^ 2) :=
    Finset.sum_le_sum fun d _ => by nlinarith [sq_nonneg (a d - b d)]
  rw [← Finset.mul_sum, Finset.sum_add_distrib] at h
  linarith

/-- Dividing a real number by the temperature is multiplying it by the temperature's reciprocal. -/
theorem div_tau (y : EReal) : Ideal.div y tau = y * invTau := by
  rw [tau_val, Ideal.div_coe (by norm_num)]
  unfold invTau
  norm_num

/-- For a similarity at most one the cap does not bind, and the reciprocal spelling is the dividing one. -/
theorem capped_eq {r : ℝ} (hr : r ≤ 1) :
    min (((r : ℝ) : EReal) * invTau) cap = Ideal.div ((r : ℝ) : EReal) tau := by
  rw [div_tau, cap_val]
  unfold invTau
  rw [← EReal.coe_mul]
  apply min_eq_left
  rw [EReal.coe_le_coe_iff]
  calc r * (134217728 / 13421773) ≤ 1 * (134217728 / 13421773) :=
        mul_le_mul_of_nonneg_right hr (by norm_num)
    _ ≤ 80 := by norm_num

/-! ### The two spellings agree -/

/-- On rows of real numbers, scaled by their floored norms, the capped, reciprocal, indicator-sum spelling of a row's
    loss is the dividing, picking, negating one. -/
theorem rowLossCapped_eq_rowLoss {n K : ℕ} (x : Fin n → ℝ) (p : Fin K → Fin n → ℝ) (l : Fin K) :
    rowLossCapped (unitRow fun d => ((x d : ℝ) : EReal)) (fun k => unitRow fun d => ((p k d : ℝ) : EReal)) l
      = rowLoss (unitRow fun d => ((x d : ℝ) : EReal)) (fun k => unitRow fun d => ((p k d : ℝ) : EReal)) l := by
  obtain ⟨a, ha, ha1⟩ := unitRow_coe x
  choose b hb hb1 using fun k => unitRow_coe (p k)
  have hA : (unitRow fun d => ((x d : ℝ) : EReal)) = fun d => ((a d : ℝ) : EReal) := funext ha
  have hB : (fun k => unitRow fun d => ((p k d : ℝ) : EReal)) = fun k d => ((b k d : ℝ) : EReal) :=
    funext fun k => funext (hb k)
  rw [hA, hB]
  have key : ∀ k, min (dot (fun d => ((a d : ℝ) : EReal)) (fun d => ((b k d : ℝ) : EReal)) * invTau) cap
      = Ideal.div (dot (fun d => ((a d : ℝ) : EReal)) (fun d => ((b k d : ℝ) : EReal))) tau := by
    intro k
    rw [dot_coe]
    exact capped_eq (sum_mul_le_one a (b k) ha1 (hb1 k))
  unfold rowLossCapped rowLoss
  simp only [key]
  rw [Finset.sum_ite_eq' Finset.univ l, if_pos (Finset.mem_univ l), zero_sub]

end Cert.Nce

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.KerBody.lean ====
/-
  What the kernel's body stores for one tile of 4096 rows: in every lane, the sum of the tile's row losses.

  The body is read one operation at a time. The layout operations (a vector cast to a column, a column broadcast along
  its rows, a sum along one axis) are read at an index first; then the column of row losses, entry by entry, is the
  capped spelling of the row's loss; then the stored block, lane by lane, is the sum of that column.
-/
import proofs.«421093_j80650895884988_3_alg».proof.Proof.Gen.KernelIdeal.Frame
import proofs.«421093_j80650895884988_3_alg».proof.Proof.Spec
import proofs.«421093_j80650895884988_3_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

namespace Cert.Nce

open Idealize.ShloMosaic Idealize.ShloMosaic.ValueIdx Cert.KernelIdeal Cert.KernelIdeal.Gen

namespace KerBody

/-! ## Layout: a column cast, a row broadcast, the inserted index of a one-axis sum -/

/-- A vector of `a` entries cast to a column reads, at `(r, c)`, entry `r`. -/
theorem colCast_apply {α : Type} {a : ℕ} (v : (⟨1, ![a]⟩ : Shape).Idx → α) (h : (⟨1, ![a]⟩ : Shape).ShapeCasts ⟨2, ![a, 1]⟩)
    (r : Fin a) (c : Fin 1) : shapeCast ⟨2, ![a, 1]⟩ v h (ix2 r c) = v (ix1 r) :=
  shapeCast_apply v h _ _ (by
    have hc : c.val = 0 := by omega
    rw [Shape.rowMajor_val_two, Shape.rowMajor_val_one]
    show r.val = r.val * 1 + c.val
    rw [hc, Nat.mul_one, Nat.add_zero])

/-- A column broadcast along its rows reads, at `(r, d)`, the column's entry `r`. -/
theorem rowBcast_apply {α : Type} {a b : ℕ} (v : (⟨2, ![a, 1]⟩ : Shape).Idx → α) (h : (⟨2, ![a, 1]⟩ : Shape).Broadcasts ⟨2, ![a, b]⟩)
    (r : Fin a) (d : Fin b) : broadcastTo ⟨2, ![a, b]⟩ v h (ix2 r d) = v (ix2 r (0 : Fin 1)) := by
  refine broadcastTo_apply v h (ix2 r d) (ix2 r (0 : Fin 1)) fun ax => ?_
  match ax with
  | ⟨0, _⟩ =>
    show r.val = if a = 1 then 0 else r.val
    split
    · have := r.isLt; omega
    · rfl
  | ⟨1, _⟩ => rfl

/-- The sum along the rows of a matrix, read at row `r`. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext c; apply Fin.ext
  match c with
  | ⟨0, _⟩ => rfl
  | ⟨1, _⟩ => rfl

/-- The sum down the one column of a column, read at its one entry. -/
theorem colSum_apply {φ : FTy} {a : ℕ} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ k : Fin a, src (ix2 k (0 : Fin 1)) := by
  refine (Ideal.multiReduction_add_single src acc h hφ hacc (ix1 u)).trans ?_
  refine Finset.sum_congr rfl fun k _ => congrArg src ?_
  funext c; apply Fin.ext
  match c with
  | ⟨0, _⟩ => rfl
  | ⟨1, _⟩ => show u.val = 0; omega

/-- The row sum at `f32`, from the zero word. -/
theorem rowSum_f32 {a b : ℕ} (src : FVec Ideal ⟨2, ![a, b]⟩ .f32) (h : (⟨2, ![a, b]⟩ : Shape).Reduces [1] ⟨1, ![a]⟩)
    (hφ : FTy.f32 = FTy.f32 ∨ FTy.f32 = FTy.bf16) (hacc : (0x00000000#32 : BitVec FTy.f32.bits) = 0x00000000#32) (r : Fin a) :
    multiReduction .add [1] ⟨1, ![a]⟩ src 0x00000000#32 h hφ hacc (ix1 r) = ∑ k : Fin b, src (ix2 r k) :=
  rowSum_apply src _ h hφ hacc r

/-- The column sum at `f32`, from the zero word. -/
theorem colSum_f32 {a : ℕ} (src : FVec Ideal ⟨2, ![a, 1]⟩ .f32) (h : (⟨2, ![a, 1]⟩ : Shape).Reduces [0] ⟨1, ![1]⟩)
    (hφ : FTy.f32 = FTy.f32 ∨ FTy.f32 = FTy.bf16) (hacc : (0x00000000#32 : BitVec FTy.f32.bits) = 0x00000000#32) (u : Fin 1) :
    multiReduction .add [0] ⟨1, ![1]⟩ src 0x00000000#32 h hφ hacc (ix1 u) = ∑ k : Fin a, src (ix2 k (0 : Fin 1)) :=
  colSum_apply src _ h hφ hacc u

/-- The 32 × 128 labels cast to a column read, at `(r, c)`, the label in row `r / 128`, lane `r % 128`. -/
theorem labelCast_apply {α : Type} (v : S32x128.Idx → α) (h : S32x128.ShapeCasts S4096x1) (r : Fin 4096) (c : Fin 1) :
    shapeCast S4096x1 v h (ix2 r c)
      = v (ix2 (⟨r.val / 128, by have := r.isLt; omega⟩ : Fin 32) (⟨r.val % 128, Nat.mod_lt _ (by norm_num)⟩ : Fin 128)) :=
  shapeCast_apply v h _ _ (by
    have hc : c.val = 0 := by omega
    rw [Shape.rowMajor_val_two, Shape.rowMajor_val_two]
    show (r.val / 128) * 128 + r.val % 128 = r.val * 1 + c.val
    omega)

/-- The counter along the prototypes reads, at `(r, k)`, the word of `k`. -/
theorem protoIota_apply (h : S4096x64.Iotas .tc 32 [1]) (r : Fin 4096) (k : Fin 64) :
    iota .tc S4096x64 32 [1] h (ix2 r k) = BitVec.ofNat 32 k.val :=
  iota_single_apply .tc S4096x64 32 1 h (ix2 r k)

/-- The words of two class numbers are equal exactly when the classes are. -/
theorem cmpi_label (k l : Fin 64) : IntOp.cmpi .eq (BitVec.ofNat 32 k.val) (BitVec.ofNat 32 l.val) = 1#1 ↔ k = l := by
  constructor
  · intro h
    have h0 : BitVec.ofBool (BitVec.ofNat 32 k.val == BitVec.ofNat 32 l.val) = 1#1 := by simpa [IntOp.cmpi] using h
    have h' : BitVec.ofNat 32 k.val = BitVec.ofNat 32 l.val := by
      by_contra hne
      rw [beq_eq_false_iff_ne.mpr hne] at h0
      exact absurd h0 (by decide)
    have h2 := congrArg BitVec.toNat h'
    simp only [BitVec.toNat_ofNat] at h2
    apply Fin.ext; omega
  · rintro rfl; simp [IntOp.cmpi]

/-- A select on the comparison of two class words is the `if` on the classes. -/
theorem select_label {α : Type} (k l : Fin 64) (A B : α) :
    Scalar.select (IntOp.cmpi .eq (BitVec.ofNat 32 k.val) (BitVec.ofNat 32 l.val)) A B = if k = l then A else B := by
  by_cases h : k = l
  · rw [if_pos h, (cmpi_label k l).mpr h, select_one]
  · rw [if_neg h, eq_zero_of_ne_one (fun h1 => h ((cmpi_label k l).mp h1)), select_zero]

/-- The product's dimension record is the plain rows-by-columns one. -/
theorem dot_eq_plain : dot_S4096x256_S256x64_S4096x64_1_0_0_1_n_n = DotDims.plain 4096 256 64 := rfl

/-- The kernel's product into the zero accumulator, read at `(r, k)`. -/
theorem protoDot_apply {φ₁ φ₂ : FTy} (prec : Option ContractPrecision) (lhs : FVec Ideal S4096x256 φ₁) (rhs : FVec Ideal S256x64 φ₂)
    (r : Fin 4096) (k : Fin 64) :
    matmul dot_S4096x256_S256x64_S4096x64_1_0_0_1_n_n prec lhs rhs (constant (F := Ideal) S4096x64 .f32 0x00000000#32) (ix2 r k)
      = ∑ d : Fin 256, lhs (ix2 r d) * rhs (ix2 d k) := by
  rw [dot_eq_plain]
  exact Cert.GNN.matmul_plain_zero_apply prec lhs rhs r k

/-- The named reciprocal of the temperature is the rational of the specification. -/
theorem invTau_named : Named.named (F := Ideal) Cert.KernelIdeal.κ "inv_tau" (φ := .f32) 0x41200000#32 = invTau :=
  IdealRules.named_const.ideal_named_scalar _ _ _ _ rfl

/-! ## Square root, exponential, logarithm and a word comparison, read at an index -/

theorem sqrt_apply {s : Shape} {φ : FTy} (a : FVec Ideal s φ) (i : s.Idx) : sqrt a i = Ideal.sqrt (a i) := rfl
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl
theorem cmpi_apply {s : Shape} {w : ℕ} (p : CmpIPredicate) (a b : IVec s w) (i : s.Idx) : cmpi p a b i = IntOp.cmpi p (a i) (b i) := rfl

/-! ## The body's two payloads -/

/-- The column of row losses: entry `(r, 0)` is the capped spelling of row `r`'s loss. -/
theorem pay2_apply (x0 : Vec Ideal S4096x256 .f32) (x1 : Vec Ideal S256x64 .bf16) (x2 : Vec Ideal S32x128 .i32)
    (L : Fin 4096 → Fin 64)
    (hL : ∀ (a : Fin 32) (b : Fin 128), x2 (ix2 a b) = BitVec.ofNat 32 (L ⟨128 * a.val + b.val, by omega⟩).val)
    (r : Fin 4096) :
    k0_pay2 (F := Ideal) x0 x1 x2 (ix2 r (0 : Fin 1))
      = rowLossCapped (unitRow fun d => x0 (ix2 r d)) (fun k d => x1 (ix2 d k)) (L r) := by
  -- row `r` of the column of labels is lane `r % 128` of row `r / 128` of the 32 × 128 block
  have hlab : x2 (ix2 (⟨r.val / 128, by have := r.isLt; omega⟩ : Fin 32) (⟨r.val % 128, Nat.mod_lt _ (by norm_num)⟩ : Fin 128))
      = BitVec.ofNat 32 (L r).val := by
    rw [hL]
    congr 3
    apply Fin.ext
    show 128 * (r.val / 128) + r.val % 128 = r.val
    omega
  unfold k0_pay2
  dsimp only
  simp only [subf_apply, addf_apply, divf_apply, mulf_apply, maximumf_apply, minimumf_apply, broadcast_apply, truncf_apply,
    sqrt_apply, exp_apply, log_apply, cmpi_apply, select_apply, colCast_apply, rowBcast_apply,
    rowSum_f32 _ reduces_S4096x64_S4096, rowSum_f32 _ reduces_S4096x256_S4096, labelCast_apply,
    protoIota_apply iota_S4096x64_d1_w32, protoDot_apply, shapeCast_self, hlab, select_label, invTau_named, Ideal.ofBits_def]
  rw [Ideal.ofBits_zero_f32]
  rfl

/-- The stored block: every lane holds the sum of the column. -/
theorem pay1_apply (v : FVec Ideal S4096x1 .f32) (j : Fin 128) :
    k0_pay1 (F := Ideal) v (ix2 (0 : Fin 1) j) = ∑ r : Fin 4096, v (ix2 r (0 : Fin 1)) := by
  unfold k0_pay1
  dsimp only
  simp only [rowBcast_apply, shapeCast_self, colCast_apply, colSum_f32 _ reduces_S4096x1_S1]

/-! ## The stored block -/

theorem zero2 : (![0, 0] : Fin 2 → Nat) = fun _ => 0 := funext fun a => by fin_cases a <;> rfl

end KerBody

open KerBody

/-- Lane `j` of the stored block is the sum over the tile's rows of the capped spelling of the row's loss: `x0` the
    tile's feature rows, `x1` the scaled prototypes laid out column by prototype, `x2` the tile's labels, 128 to a
    row, each the word of a class number. -/
theorem out_tile (x0 : Vec Ideal S4096x256 .f32) (x1 : Vec Ideal S256x64 .bf16) (x2 : Vec Ideal S32x128 .i32)
    (L : Fin 4096 → Fin 64)
    (hL : ∀ (a : Fin 32) (b : Fin 128), x2 (ix2 a b) = BitVec.ofNat 32 (L ⟨128 * a.val + b.val, by omega⟩).val)
    (j : Fin 128) :
    Cert.KernelIdeal.Gen.out0_3 (F := Ideal) x0 x1 x2 (ix2 (0 : Fin 1) j)
      = ∑ r : Fin 4096, rowLossCapped (unitRow fun d => x0 (ix2 r d)) (fun k d => x1 (ix2 d k)) (L r) := by
  unfold Gen.out0_3
  rw [View.canon_unit_zero zero2]
  simp only [View.ld_unit_zero (S := S4096x256) zero2, View.ld_unit_zero (S := S256x64) zero2,
    View.ld_unit_zero (S := S32x128) zero2]
  rw [pay1_apply]
  exact Finset.sum_congr rfl fun r _ => pay2_apply x0 x1 x2 L hL r

end Cert.Nce

end
-- ==== Proof.KerHost.lean ====
/-
  What the host operations before the kernel leave in the two arrays the kernel reads besides the features: the
  prototypes scaled by their floored norms and transposed, and the labels clipped to the classes and laid out 128 to a row.
-/
import proofs.«421093_j80650895884988_3_alg».proof.Proof.Gen.KernelIdeal.Frame
import proofs.«421093_j80650895884988_3_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run
import Idealize.ShloMosaic.PureOps.Ideal.Laws

noncomputable section

namespace Cert.Nce

open Idealize.ShloMosaic Idealize.ShloMosaic.ValueIdx Idealize.SL.Sem Cert.KernelIdeal Cert.KernelIdeal.Gen

/-! ## The two composed terms read at an index, over any operand -/

/-- The host's square root at an index is the ideal square root of the element. -/
theorem hostSqrt_apply {s : Shape} {φ : FTy} (x : FVec Ideal s φ) (i : s.Idx) :
    Host.sqrt (F := Ideal) x i = Ideal.sqrt (x i) := rfl

/-- Twelve operations on a 64×256 array `P`: the squares summed along each row from zero, the square root, the maximum
    with the floor, the row's quotient by it, the transpose, the narrowing to bf16 (the identity on extended reals).
    Entry `(d, k)` of the result is entry `d` of row `k` over that row's floored norm: the row-sum is read at the
    inserted index `(k, d')`, the two broadcasts at `(k, 0)` and `k`, the transpose at `(k, d)`. -/
theorem protos_apply (P : FVec Ideal S64x256 .f32) (d : Fin 256) (k : Fin 64) :
    (truncf .bf16 (transpose S256x64 [1, 0]
          (Host.divf (F := Ideal) P
            (broadcastInDim S64x256 ![0, 1] bcast_S64x1_S64x256_0_1
              (maximumf
                (Host.sqrt (F := Ideal) (broadcastInDim S64x1 ![0] bcast_S64_S64x1_0
                  (Host.reduceAdd (F := Ideal) (mulf P P)
                    (constant (F := Ideal) S_ .f32 0x00000000#32) reducesTo_S64x256_S64_d1 h_S_)))
                (broadcastInDim S64x1 ![] bcast_S_S64x1 (constant (F := Ideal) S_ .f32 0x2B8CBCCC#32)))))
          transposes_S64x256_S256x64_1_0) bitsLt_bf16_f32 : FVec Ideal S256x64 .bf16) (ix2 d k)
      = unitRow (fun d' => P (ix2 k d')) d := by
  rw [truncf_apply, transpose_ix2_apply, hostDivf_apply]
  rw [broadcastInDim_apply _ bcast_S64x1_S64x256_0_1 _ (ix2 k d) (ix2 k (0 : Fin 1)) (fun a => match a with
    | ⟨0, _⟩ => by show k.val = if (64 : Nat) = 1 then 0 else k.val; rw [if_neg (by decide)]
    | ⟨1, _⟩ => by show 0 = if (1 : Nat) = 1 then 0 else d.val; rw [if_pos rfl])]
  rw [maximumf_apply, broadcastInDim_scalar_apply, constant_apply, hostSqrt_apply]
  rw [broadcastInDim_apply _ bcast_S64_S64x1_0 _ (ix2 k (0 : Fin 1)) (ix1 k) (fun a => match a with
    | ⟨0, _⟩ => by show k.val = if (64 : Nat) = 1 then 0 else k.val; rw [if_neg (by decide)])]
  rw [hostReduceAdd_apply, Ideal.hostReduceAdd_single reducesTo_S64x256_S64_d1 (by decide), constant_apply,
    Ideal.ofBits_zero_f32, zero_add]
  unfold unitRow floorNorm tiny
  refine congrArg (fun s => Ideal.div (P (ix2 k d)) (max (Ideal.sqrt s) _)) (Finset.sum_congr rfl fun d' _ => ?_)
  rw [mulf_apply]
  have e : (Shape.Reduces.lift (by decide : S64x256.Reduces [1] S64) (ix1 k) d' : S64x256.Idx) = ix2 k d' :=
    funext fun a => Fin.ext (by match a with | ⟨0, _⟩ => rfl | ⟨1, _⟩ => rfl)
  rw [e]; rfl

/-- A word array `L` of 262144 entries clipped to `[0, 63]` — the signed maximum with the scalar 0 broadcast, then the
    signed minimum with the scalar 63 broadcast — and laid out 128 to a row: entry `(a, b)` is the clip of entry
    `128 a + b`, the two layouts having the same row-major position there. -/
theorem labels_apply (L : IVec S262144 32) (a : Fin 2048) (b : Fin 128) :
    (shapeCast S2048x128
        (minsi (broadcastInDim S262144 ![] bcast_S_S262144 (id (constantI S_ 32 63#32)))
          (maxsi (broadcastInDim S262144 ![] bcast_S_S262144 (id (constantI S_ 32 0#32))) L))
        shapeCasts_S262144_S2048x128 : IVec S2048x128 32) (ix2 a b)
      = IntOp.minsi 63#32 (IntOp.maxsi 0#32 (L (ix1 ⟨128 * a.val + b.val, by omega⟩))) := by
  rw [shapeCast_apply _ shapeCasts_S262144_S2048x128 (ix2 a b) (ix1 ⟨128 * a.val + b.val, by omega⟩) (by
    rw [Shape.rowMajor_val_two, Shape.rowMajor_val_one]
    show 128 * a.val + b.val = a.val * 128 + b.val
    omega)]
  show IntOp.minsi (broadcastInDim S262144 ![] bcast_S_S262144 (id (constantI S_ 32 63#32)) _)
      (IntOp.maxsi (broadcastInDim S262144 ![] bcast_S_S262144 (id (constantI S_ 32 0#32)) _) _) = _
  rw [broadcastInDim_scalar_apply, broadcastInDim_scalar_apply]
  rfl

/-! ## The arrays as the host operations' composed terms -/

variable (m : (ℓ : Loc nD τ sig) → Buf (Elt Ideal) ℓ)

/-- The kernel's second array when the region is entered: the twelve operations' term of the prototypes as launched. -/
theorem V_protos_term (c : Dev nD) :
    (V m c main_v9 : S256x64.Idx → EReal)
      = (truncf .bf16 (transpose S256x64 [1, 0]
          (Host.divf (F := Ideal) (m ((c.tc : Thread nD τ).loc main_arg1))
            (broadcastInDim S64x256 ![0, 1] bcast_S64x1_S64x256_0_1
              (maximumf
                (Host.sqrt (F := Ideal) (broadcastInDim S64x1 ![0] bcast_S64_S64x1_0
                  (Host.reduceAdd (F := Ideal)
                    (mulf (m ((c.tc : Thread nD τ).loc main_arg1)) (m ((c.tc : Thread nD τ).loc main_arg1)))
                    (constant (F := Ideal) S_ .f32 0x00000000#32) reducesTo_S64x256_S64_d1 h_S_)))
                (broadcastInDim S64x1 ![] bcast_S_S64x1 (constant (F := Ideal) S_ .f32 0x2B8CBCCC#32)))))
          transposes_S64x256_S256x64_1_0) bitsLt_bf16_f32 : S256x64.Idx → EReal) := by
  dsimp only [Gen.V, Gen.V0]
  simp only [Gen.hostOps0, Gen.hostOps0_1, Gen.hostOps0_2, List.flatten_cons, List.flatten_nil, List.append_nil,
    List.cons_append, List.nil_append]
  after_results

/-- The kernel's third array when the region is entered: the clip's and the reshape's term of the labels as launched. -/
theorem V_labels_term (c : Dev nD) :
    (V m c main_v11 : S2048x128.Idx → BitVec 32)
      = (shapeCast S2048x128
          (minsi (broadcastInDim S262144 ![] bcast_S_S262144 (id (constantI S_ 32 63#32)))
            (maxsi (broadcastInDim S262144 ![] bcast_S_S262144 (id (constantI S_ 32 0#32)))
              (m ((c.tc : Thread nD τ).loc main_arg2))))
          shapeCasts_S262144_S2048x128 : S2048x128.Idx → BitVec 32) := by
  dsimp only [Gen.V, Gen.V0]
  simp only [Gen.hostOps0, Gen.hostOps0_1, Gen.hostOps0_2, List.flatten_cons, List.flatten_nil, List.append_nil,
    List.cons_append, List.nil_append]
  after_results
  rfl

/-! ## The interface -/

/-- The array the kernel's second window stages: entry `(d, k)` is entry `d` of prototype row `k` scaled by its floored norm. -/
theorem V_protos (c : Dev nD) (d : Fin 256) (k : Fin 64) :
    (V m c main_v9 : S256x64.Idx → EReal) (ix2 d k)
      = unitRow (fun d' => (m ((c.tc : Thread nD τ).loc main_arg1) : S64x256.Idx → EReal) (ix2 k d')) d := by
  rw [V_protos_term m c]
  exact protos_apply (m ((c.tc : Thread nD τ).loc main_arg1)) d k

/-- The array the kernel's third window stages: entry `(a, b)` is label `128 a + b` clipped to `[0, 63]`. -/
theorem V_labels (c : Dev nD) (a : Fin 2048) (b : Fin 128) :
    (V m c main_v11 : S2048x128.Idx → BitVec 32) (ix2 a b)
      = IntOp.minsi 63#32 (IntOp.maxsi 0#32
          ((m ((c.tc : Thread nD τ).loc main_arg2) : S262144.Idx → BitVec 32) (ix1 ⟨128 * a.val + b.val, by omega⟩))) := by
  rw [V_labels_term m c]
  exact labels_apply (m ((c.tc : Thread nD τ).loc main_arg2)) a b

end Cert.Nce

end
-- ==== Proof.KerValue.lean ====
/-
  The kernel program's result as the mean of the rows' losses.

  Lane 0 of tile `t`'s stored block is the sum, over the tile's 4096 rows, of the capped spelling of the row's loss at
  the tile's blocks. The feature block's row `r` is row `4096 t + r` of the features; the prototype block is the
  prototypes scaled by their floored norms; the label block holds the clipped labels, which for class numbers are the
  labels. On real rows the capped spelling is the dividing one. Summing the tiles' sums is summing over all rows.
-/
import proofs.«421093_j80650895884988_3_alg».proof.Proof.KerArray
import proofs.«421093_j80650895884988_3_alg».proof.Proof.RowMath
import proofs.«421093_j80650895884988_3_alg».proof.Proof.KerBody
import proofs.«421093_j80650895884988_3_alg».proof.Proof.KerHost

noncomputable section

namespace Cert.Nce

open Idealize.ShloMosaic Idealize.ShloMosaic.ValueIdx Idealize.ShloMosaic.TcCoe Idealize.SL.Sem Cert.KernelIdeal Cert.KernelIdeal.Gen
open Idealize.ShloMosaic.Pipeline (Dat)

variable (m : (ℓ : Loc nD τ sig) → Buf (Elt Ideal) ℓ)

/-- Clipping the word of a class number to `[0, 63]` leaves it. -/
theorem clip_class : ∀ l : Fin 64, IntOp.minsi 63#32 (IntOp.maxsi 0#32 (BitVec.ofNat 32 l.val)) = BitVec.ofNat 32 l.val := by
  decide

/-- A sum over the 262144 rows, taken tile by tile: sixty-four tiles of 4096 rows. -/
theorem sum_tiles (f : Fin 262144 → EReal) :
    (∑ t : Fin 64, ∑ r : Fin 4096, f ⟨4096 * t.val + r.val, by have := t.isLt; have := r.isLt; omega⟩) = ∑ b, f b := by
  rw [← Fintype.sum_prod_type']
  refine Fintype.sum_equiv (finProdFinEquiv (m := 64) (n := 4096)) _ _ fun x => ?_
  refine congrArg f (Fin.ext ?_)
  show 4096 * x.1.val + x.2.val = x.2.val + 4096 * x.1.val
  omega

/-- The kernel program's result on real features and prototypes and labels that are class numbers: the mean over the
    rows of the dividing, picking, negating spelling of the row's loss. -/
theorem kernel_value (c : Dev nD) (x : Fin 262144 → Fin 256 → ℝ) (p : Fin 64 → Fin 256 → ℝ) (L : Fin 262144 → Fin 64)
    (hx : ∀ b d, (m ((c.tc : Thread nD τ).loc main_arg0) : S262144x256.Idx → EReal) (ix2 b d) = ((x b d : ℝ) : EReal))
    (hp : ∀ k d, (m ((c.tc : Thread nD τ).loc main_arg1) : S64x256.Idx → EReal) (ix2 k d) = ((p k d : ℝ) : EReal))
    (hL : ∀ b, (m ((c.tc : Thread nD τ).loc main_arg2) : S262144.Idx → BitVec 32) (ix1 b) = BitVec.ofNat 32 (L b).val)
    (i : S_.Idx) :
    (Pipeline.afterTail₀ cfgs (dats m) 0 (V0 m) [hostOps1] c main_v17 : S_.Idx → EReal) i
      = meanOf fun b : Fin 262144 =>
          rowLoss (unitRow fun d => ((x b d : ℝ) : EReal)) (fun k => unitRow fun d => ((p k d : ℝ) : EReal)) (L b) := by
  rw [tail_value]
  unfold meanOf
  refine congrArg (fun s => Ideal.div s nrows) ?_
  rw [← sum_tiles]
  refine Finset.sum_congr rfl fun t _ => ?_
  have ht := t.isLt
  have hN : cfg0.N = 64 := N_0
  -- the grid point of tile `t`
  obtain ⟨t', ht'⟩ : ∃ t' : Fin cfg0.N, t'.val = t.val := ⟨⟨t.val, by omega⟩, rfl⟩
  rw [tileOut_of m c _ t' (0 : Fin 128) (by show 128 * t.val = 128 * t'.val + 0; omega)]
  -- the tile's labels are the words of class numbers
  have hLt : ∀ (a : Fin 32) (b : Fin 128), iblk m c 2 t' (ix2 a b)
      = BitVec.ofNat 32 ((fun r : Fin 4096 => L ⟨4096 * t.val + r.val, by have := r.isLt; omega⟩)
          ⟨128 * a.val + b.val, by have := a.isLt; have := b.isLt; omega⟩).val := by
    intro a b
    have ha := a.isLt
    have hb := b.isLt
    rw [blk2 m c t' a b (by omega), V_labels m c ⟨32 * t'.val + a.val, by omega⟩ b,
      hL ⟨128 * (32 * t'.val + a.val) + b.val, by omega⟩, clip_class]
    exact congrArg (fun l : Fin 262144 => BitVec.ofNat 32 (L l).val) (Fin.ext (by
      show 128 * (32 * t'.val + a.val) + b.val = 4096 * t.val + (128 * a.val + b.val); omega))
  refine (out_tile (iblk m c 0 t') (iblk m c 1 t') (iblk m c 2 t')
    (fun r : Fin 4096 => L ⟨4096 * t.val + r.val, by have := r.isLt; omega⟩) hLt 0).trans ?_
  refine Finset.sum_congr rfl fun r _ => ?_
  have hr := r.isLt
  have hrow : (fun d => iblk m c 0 t' (ix2 r d))
      = fun d => ((x ⟨4096 * t.val + r.val, by omega⟩ d : ℝ) : EReal) := funext fun d => by
    rw [blk0 m c t' r d (by omega), V_main_arg0]
    exact (congrArg (fun l : Fin 262144 => (m ((c.tc : Thread nD τ).loc main_arg0) : S262144x256.Idx → EReal) (ix2 l d))
      (Fin.ext (by show 4096 * t'.val + r.val = 4096 * t.val + r.val; omega))).trans (hx _ d)
  have hq : (fun (k : Fin 64) (d : Fin 256) => iblk m c 1 t' (ix2 d k))
      = fun k => unitRow fun d => ((p k d : ℝ) : EReal) := funext fun k => funext fun d => by
    rw [blk1 m c t' d k, V_protos m c d k]
    exact congrArg (fun row => unitRow row d) (funext fun d' => hp k d')
  rw [hrow, hq]
  exact rowLossCapped_eq_rowLoss _ _ _

end Cert.Nce

end
-- ==== Proof.RefValue.lean ====
/-
  The reference's result, read one operation at a time: the mean over the rows of the dividing, picking, negating
  spelling of the row's loss.

  The two rows' scalings, the similarities' exponentials and the row sums are read off their stages directly. The
  labelled exponential comes through a take along the class axis: with every label the word of a class number the
  negative-index wrap is not taken, both range tests hold, the clamp of the start index changes nothing, and the take
  reads, in each row, the exponential at the row's label.
-/
import proofs.«421093_j80650895884988_3_alg».proof.Proof.RefRead
import proofs.«421093_j80650895884988_3_alg».proof.Proof.Spec
import Idealize.ShloMosaic.Lib.ValueIdx
import Idealize.ShloMosaic.Lib.ValueIdxRank1
import Idealize.ShloMosaic.Lib.ValueLayout
import Idealize.ShloMosaic.Lib.IdealHost
import Idealize.ShloMosaic.Lib.ReduceAll
import Idealize.ShloMosaic.Lib.StableHlo.Predicate

noncomputable section

namespace Cert.Nce

open Idealize.ShloMosaic Idealize.ShloMosaic.ValueIdx Cert.ReferenceIdeal Cert.ReferenceIdeal.ReadP

/-- A feature row scaled by its floored norm, read at an entry. -/
theorem ref_unit0 (x0 : (⟨S262144x256, .f32⟩ : BufTy).Contents (Elt Ideal)) (b : Fin 262144) (d : Fin 256) :
    val_main_v7 (F := Ideal) x0 (ix2 b d) = unitRow (fun d => x0 (ix2 b d)) d := by
  have e : ∀ k : Fin 256, idx_main_v1 (idx_main_v2 (idx_main_v6 (ix2 b d))) k = ix2 b k := fun k =>
    funext fun a => Fin.ext (by match a with | ⟨0, _⟩ => rfl | ⟨1, _⟩ => rfl)
  rw [val_main_v7_apply, val_main_v6_apply, val_main_v5_apply, val_main_v3_apply, val_main_v4_apply, val_main_v2_apply,
    val_main_v1_apply, val_main_cst_0_apply, val_main_cst_apply]
  simp only [e, val_main_v0_apply, Ideal.hostDivf_def, Ideal.maximumf_def, Ideal.hostUnary_sqrt_def, Ideal.ofBits_def,
    Ideal.mulf_def, Ideal.ofBits_zero_f32, zero_add]
  rfl

/-- A prototype row scaled by its floored norm, read at an entry. -/
theorem ref_unit1 (x1 : (⟨S64x256, .f32⟩ : BufTy).Contents (Elt Ideal)) (k : Fin 64) (d : Fin 256) :
    val_main_v15 (F := Ideal) x1 (ix2 k d) = unitRow (fun d => x1 (ix2 k d)) d := by
  have e : ∀ c : Fin 256, idx_main_v9 (idx_main_v10 (idx_main_v14 (ix2 k d))) c = ix2 k c := fun c =>
    funext fun a => Fin.ext (by match a with | ⟨0, _⟩ => rfl | ⟨1, _⟩ => rfl)
  rw [val_main_v15_apply, val_main_v14_apply, val_main_v13_apply, val_main_v11_apply, val_main_v12_apply, val_main_v10_apply,
    val_main_v9_apply, val_main_cst_2_apply, val_main_cst_1_apply]
  simp only [e, val_main_v8_apply, Ideal.hostDivf_def, Ideal.maximumf_def, Ideal.hostUnary_sqrt_def, Ideal.ofBits_def,
    Ideal.mulf_def, Ideal.ofBits_zero_f32, zero_add]
  rfl

/-- The exponential of the similarity of row `b` to prototype `k`. -/
theorem ref_expSim (x0 : (⟨S262144x256, .f32⟩ : BufTy).Contents (Elt Ideal)) (x1 : (⟨S64x256, .f32⟩ : BufTy).Contents (Elt Ideal))
    (b : Fin 262144) (k : Fin 64) :
    val_main_v19 (F := Ideal) x0 x1 (ix2 b k)
      = Ideal.exp (Ideal.div (dot (unitRow fun d => x0 (ix2 b d)) (unitRow fun d => x1 (ix2 k d))) tau) := by
  have el : ∀ c : Fin 256, lidx_main_v16 (ix2 b k) c = ix2 b c := fun c =>
    funext fun a => Fin.ext (by match a with | ⟨0, _⟩ => rfl | ⟨1, _⟩ => rfl)
  have er : ∀ c : Fin 256, ridx_main_v16 (ix2 b k) c = ix2 k c := fun c =>
    funext fun a => Fin.ext (by match a with | ⟨0, _⟩ => rfl | ⟨1, _⟩ => rfl)
  rw [val_main_v19_apply, val_main_v18_apply, val_main_v17_apply, val_main_cst_3_apply, val_main_v16_apply]
  simp only [el, er, ref_unit0, ref_unit1, Ideal.hostDivf_def, Ideal.hostUnary_exp_def, Ideal.ofBits_def]
  rfl

/-- The sum of a row's exponentials. -/
theorem ref_denom (x0 : (⟨S262144x256, .f32⟩ : BufTy).Contents (Elt Ideal)) (x1 : (⟨S64x256, .f32⟩ : BufTy).Contents (Elt Ideal))
    (b : Fin 262144) :
    val_main_v23 (F := Ideal) x0 x1 (ix1 b)
      = ∑ k : Fin 64, Ideal.exp (Ideal.div (dot (unitRow fun d => x0 (ix2 b d)) (unitRow fun d => x1 (ix2 k d))) tau) := by
  have e : ∀ k : Fin 64, idx_main_v23 (ix1 b) k = ix2 b k := fun k =>
    funext fun a => Fin.ext (by match a with | ⟨0, _⟩ => rfl | ⟨1, _⟩ => rfl)
  rw [val_main_v23_apply, val_main_cst_4_apply]
  simp only [e, ref_expSim, Ideal.ofBits_def, Ideal.ofBits_zero_f32, zero_add]

section Label

open Idealize.ShloMosaic.StableHlo.Predicate

/-- The word of a class number is a small non-negative word. -/
theorem ref_word_toNat (l : Fin 64) : (BitVec.ofNat 32 l.val).toNat = l.val := by
  rw [BitVec.toNat_ofNat]; exact Nat.mod_eq_of_lt (by have := l.isLt; omega)

/-- A class number's word is not negative: the index wrap is not taken. -/
theorem ref_word_not_neg (l : Fin 64) : IntOp.cmpi .slt (BitVec.ofNat 32 l.val) 0#32 = 0#1 := by
  refine eq_zero_of_ne_one fun h => ?_
  have hw := ref_word_toNat l
  have := (slt_iff_toNat (a := BitVec.ofNat 32 l.val) (b := 0#32) (by rw [hw]; have := l.isLt; omega) (by decide)).1 h
  exact Nat.not_lt_zero _ this

/-- A class number's word is at least zero, read signed. -/
theorem ref_word_ge_zero (l : Fin 64) : IntOp.cmpi .sge (BitVec.ofNat 32 l.val) 0#32 = 1#1 := by
  have hw := ref_word_toNat l
  exact (sge_iff_toNat (a := BitVec.ofNat 32 l.val) (b := 0#32) (by rw [hw]; have := l.isLt; omega) (by decide)).2 (Nat.zero_le _)

/-- A class number's word is at most sixty-three, read signed. -/
theorem ref_word_le_last (l : Fin 64) : IntOp.cmpi .sle (BitVec.ofNat 32 l.val) 63#32 = 1#1 := by
  have hw := ref_word_toNat l
  refine (sle_iff_toNat (a := BitVec.ofNat 32 l.val) (b := 63#32) (by rw [hw]; have := l.isLt; omega) (by decide)).2 ?_
  rw [hw]; have := l.isLt; show l.val ≤ 63; omega

/-- A class number's word read signed is the class number. -/
theorem ref_word_toInt (l : Fin 64) : (BitVec.ofNat 32 l.val).toInt.toNat = l.val := by
  rw [toInt_ofNat_small l.val (by have := l.isLt; omega)]; rfl

end Label

/-- A left fold by `and` from one over bits that are all one is one. -/
theorem ref_foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, (by decide : IntOp.andi (1#1 : BitVec 1) 1#1 = 1#1)]
    exact ref_foldl_andi_ones f hf l

section Take

variable (x2 : (⟨S262144, .i32⟩ : BufTy).Contents (Elt Ideal)) (L : Fin 262144 → Fin 64)
  (hL : ∀ b : Fin 262144, x2 (ix1 b) = BitVec.ofNat 32 (L b).val)
include hL

/-- The start index of row `b`, after the negative-index wrap that is not taken, is the row's label word. -/
theorem ref_startWord (b : Fin 262144) (u v : Fin 1) :
    val_main_call0_v5 (F := Ideal) x2 (ix3 b u v) = BitVec.ofNat 32 (L b).val := by
  have e : idx_main_v20 (idx_main_call0_v5 (ix3 b u v)) = ix1 b :=
    funext fun a => Fin.ext (by
      match a with
      | ⟨0, _⟩ =>
        have hu : u.val < 1 := u.isLt
        have hv : v.val < 1 := v.isLt
        show ((b.val * 1 + u.val) * 1 + v.val) / 1 = b.val
        omega)
  rw [val_main_call0_v5_apply, val_main_call0_v4_apply, val_main_call0_v1_apply, val_main_v20_apply, e, hL b,
    val_main_call0_v0_apply, val_main_call0_c_apply, ref_word_not_neg, select_zero]

/-- Every in-bounds bit is one. -/
theorem ref_inBounds (i : S262144x1x1.Idx) : val_main_call0_v11 (F := Ideal) x2 i = 1#1 := by
  obtain ⟨b, u, v, rfl⟩ : ∃ (b : Fin 262144) (u v : Fin 1), i = ix3 b u v := ⟨i 0, i 1, i 2, eq_ix3 i⟩
  rw [val_main_call0_v11_apply, val_main_call0_v7_apply, val_main_call0_v10_apply, ref_startWord x2 L hL,
    val_main_call0_v6_apply, val_main_call0_c_2_apply, val_main_call0_v9_apply, val_main_call0_v8_apply,
    val_main_call0_c_1_apply, ref_word_ge_zero, ref_word_le_last]
  decide

/-- The reduced in-bounds bit of every row is one. -/
theorem ref_inBoundsRow (j : S262144x1.Idx) : val_main_call0_v12 (F := Ideal) x2 j = 1#1 := by
  unfold val_main_call0_v12
  have h := ref_inBounds x2 L hL
  generalize val_main_call0_v11 (F := Ideal) x2 = y at h
  rw [Host.reduce_eq_foldl]
  exact ref_foldl_andi_ones y h _

end Take

section Gather

/-- The batched take reads, on the row axis, its own row. -/
theorem ref_take_axis0 (idx : IVec S262144x1x1 32) (j : S262144x1.Idx) :
    (gather_S262144x64_S262144x1x1_S262144x1_n_1_0_0_1_2_11.operandIdx j idx 0).val = (j 0).val := by
  show gather_S262144x64_S262144x1x1_S262144x1_n_1_0_0_1_2_11.start j idx 0
      + gather_S262144x64_S262144x1x1_S262144x1_n_1_0_0_1_2_11.batchCoord j 0
      + gather_S262144x64_S262144x1x1_S262144x1_n_1_0_0_1_2_11.offCoord j 0 = (j 0).val
  rw [GatherDims.start_batching _ _ _ _ (by decide), GatherDims.offCoord_eq_zero _ _ _ (by decide), Nat.zero_add, Nat.add_zero]
  unfold GatherDims.batchCoord
  rw [dif_pos (by decide)]
  rfl

/-- The batched take reads, on the class axis, the start index read signed and clamped into the classes. -/
theorem ref_take_axis1 (idx : IVec S262144x1x1 32) (b : Fin 262144) (u : Fin 1) :
    (gather_S262144x64_S262144x1x1_S262144x1_n_1_0_0_1_2_11.operandIdx (ix2 b u) idx 1).val
      = min (idx (ix3 b u (0 : Fin 1))).toInt.toNat 63 := by
  show gather_S262144x64_S262144x1x1_S262144x1_n_1_0_0_1_2_11.start (ix2 b u) idx 1
      + gather_S262144x64_S262144x1x1_S262144x1_n_1_0_0_1_2_11.batchCoord (ix2 b u) 1
      + gather_S262144x64_S262144x1x1_S262144x1_n_1_0_0_1_2_11.offCoord (ix2 b u) 1 = _
  rw [GatherDims.batchCoord_eq_zero _ _ _ (by decide), GatherDims.offCoord_eq_zero _ _ _ (by decide)]
  simp only [Nat.add_zero]
  unfold GatherDims.start
  rw [dif_pos (by decide)]
  have hsi : gather_S262144x64_S262144x1x1_S262144x1_n_1_0_0_1_2_11.siIdx (ix2 b u)
      ⟨List.idxOf (1 : Fin S262144x64.rank) gather_S262144x64_S262144x1x1_S262144x1_n_1_0_0_1_2_11.startIndexMap,
        List.idxOf_lt_length_iff.2 (by decide)⟩ = ix3 b u (0 : Fin 1) := by
    funext a; refine Fin.ext ?_
    match a with
    | ⟨0, _⟩ => rfl
    | ⟨1, _⟩ => rfl
    | ⟨2, _⟩ => rfl
  rw [hsi]
  rfl

end Gather

section Row

variable (x0 : (⟨S262144x256, .f32⟩ : BufTy).Contents (Elt Ideal)) (x1 : (⟨S64x256, .f32⟩ : BufTy).Contents (Elt Ideal))
  (x2 : (⟨S262144, .i32⟩ : BufTy).Contents (Elt Ideal)) (L : Fin 262144 → Fin 64)
  (hL : ∀ b : Fin 262144, x2 (ix1 b) = BitVec.ofNat 32 (L b).val)
include hL

/-- The take along the class axis reads, in row `b`, the exponential at the row's label. -/
theorem ref_gathered (b : Fin 262144) (u : Fin 1) :
    val_main_call0_v13 (F := Ideal) x0 x1 x2 (ix2 b u) = val_main_v19 (F := Ideal) x0 x1 (ix2 b (L b)) := by
  unfold val_main_call0_v13
  have hs := ref_startWord x2 L hL b u (0 : Fin 1)
  generalize val_main_v19 (F := Ideal) x0 x1 = e
  generalize val_main_call0_v5 (F := Ideal) x2 = idx at hs
  unfold Host.gather
  refine congrArg e (funext fun a => Fin.ext ?_)
  match a with
  | ⟨0, _⟩ => exact ref_take_axis0 idx (ix2 b u)
  | ⟨1, _⟩ =>
    refine (ref_take_axis1 idx b u).trans ?_
    rw [hs, ref_word_toInt]
    have := (L b).isLt
    show min (L b).val 63 = (L b).val
    omega

/-- The labelled exponential of row `b`. -/
theorem ref_numer (b : Fin 262144) :
    val_main_v22 (F := Ideal) x0 x1 x2 (ix1 b)
      = Ideal.exp (Ideal.div (dot (unitRow fun d => x0 (ix2 b d)) (unitRow fun d => x1 (ix2 (L b) d))) tau) := by
  have e : idx_main_v22 (ix1 b) = ix2 b (0 : Fin 1) :=
    funext fun a => Fin.ext (by
      match a with
      | ⟨0, _⟩ => show b.val / 1 = b.val; omega
      | ⟨1, _⟩ => rfl)
  rw [val_main_v22_apply, val_main_v21_apply, ref_inBoundsRow x2 L hL, select_one, e, ref_gathered x0 x1 x2 L hL, ref_expSim]

/-- The loss of row `b`. -/
theorem ref_rowValue (b : Fin 262144) :
    val_main_v32 (F := Ideal) x0 x1 x2 (ix1 b)
      = rowLoss (unitRow fun d => x0 (ix2 b d)) (fun k => unitRow fun d => x1 (ix2 k d)) (L b) := by
  rw [val_main_v32_apply, val_main_v31_apply, val_main_v30_apply, val_main_v28_apply, val_main_v25_apply, val_main_v27_apply,
    ref_numer x0 x1 x2 L hL, ref_denom, val_main_v24_apply, val_main_v26_apply, val_main_v29_apply, val_main_cst_5_apply,
    val_main_cst_6_apply, val_main_cst_7_apply]
  simp only [Ideal.hostNegf_def, Ideal.negf_def, Ideal.hostUnary_log_def, Ideal.addf_def, Ideal.hostDivf_def, Ideal.ofBits_def]
  rfl

end Row

/-- With every label the word of a class number, the reference's last stage is the mean of the rows' losses. -/
theorem ref_value (x0 : (⟨S262144x256, .f32⟩ : BufTy).Contents (Elt Ideal)) (x1 : (⟨S64x256, .f32⟩ : BufTy).Contents (Elt Ideal))
    (x2 : (⟨S262144, .i32⟩ : BufTy).Contents (Elt Ideal)) (L : Fin 262144 → Fin 64)
    (hL : ∀ b : Fin 262144, x2 (ix1 b) = BitVec.ofNat 32 (L b).val) (i : S_.Idx) :
    val_main_v34 (F := Ideal) x0 x1 x2 i
      = meanOf fun b : Fin 262144 =>
          rowLoss (unitRow fun d => x0 (ix2 b d)) (fun k => unitRow fun d => x1 (ix2 k d)) (L b) := by
  rw [val_main_v34_apply, val_main_v33_apply, val_main_cst_9_apply, val_main_cst_8_apply]
  simp only [Ideal.hostDivf_def, Ideal.ofBits_def, Ideal.ofBits_zero_f32, zero_add]
  have hsum : ∑ j : S262144.Idx, val_main_v32 (F := Ideal) x0 x1 x2 j
      = ∑ b : Fin 262144, rowLoss (unitRow fun d => x0 (ix2 b d)) (fun k => unitRow fun d => x1 (ix2 k d)) (L b) := by
    generalize hy : val_main_v32 (F := Ideal) x0 x1 x2 = y
    have hr : ∀ b : Fin 262144, y (ix1 b)
        = rowLoss (unitRow fun d => x0 (ix2 b d)) (fun k => unitRow fun d => x1 (ix2 k d)) (L b) := fun b => by
      rw [← hy]; exact ref_rowValue x0 x1 x2 L hL b
    rw [← Equiv.sum_comp idxEquiv1.symm]
    exact Finset.sum_congr rfl fun b _ => hr b
  rw [hsum]
  rfl

end Cert.Nce

end
-- ==== Proof.lean ====
/-
  The certificate: a fused contrastive loss kernel against its jnp reference, equal over the extended reals.

  Both programs scale each feature row and each prototype row by its Euclidean norm floored at `f32 1e-12`, take the
  inner products over the temperature, exponentiate, and average `-log ((e_l + ε) / (Σ_k e_k + ε) + ε)` over the
  262144 rows, `l` the row's label. They differ in four spellings. The kernel multiplies by the folded reciprocal of the
  temperature where the reference divides by `f32 0.1`: the kernel's literal ten is named the exact reciprocal
  `1 / (13421773 / 2²⁷)` of the reference's word, and multiplying by it is that division. The kernel caps the similarity
  at eighty: for real inputs the scaled rows have squares summing to at most one, so their inner product is at most one
  and the similarity stays a little over ten. The kernel sums the exponentials under the indicator of the label where the
  reference gathers one: for a label in `[0, 64)` the kernel's clip and the reference's index handling both leave the
  label, and the indicator sum is the gathered term. The kernel adds the rows tile by tile, 4096 at a time, and the tiles'
  sums on the host; the reference adds all rows at once.

  The precondition: every feature and prototype entry is finite and every label lies in `[0, 64)`.
-/
import proofs.«421093_j80650895884988_3_alg».proof.Defs
import proofs.«421093_j80650895884988_3_alg».proof.Proof.Gen.Kernel
import proofs.«421093_j80650895884988_3_alg».proof.Proof.Gen.Kernel.Frame
import proofs.«421093_j80650895884988_3_alg».proof.Proof.Gen.KernelIdeal
import proofs.«421093_j80650895884988_3_alg».proof.Proof.Gen.KernelIdeal.Frame
import proofs.«421093_j80650895884988_3_alg».proof.Proof.Gen.ReferenceIdeal
import proofs.«421093_j80650895884988_3_alg».proof.Proof.Gen.Pre_finite_inputs
import proofs.«421093_j80650895884988_3_alg».proof.Proof.RefRun
import proofs.«421093_j80650895884988_3_alg».proof.Proof.RefRead
import proofs.«421093_j80650895884988_3_alg».proof.Proof.PreDecode
import proofs.«421093_j80650895884988_3_alg».proof.Proof.KerValue
import proofs.«421093_j80650895884988_3_alg».proof.Proof.RefValue
import Idealize.ShloMosaic.Adequacy
import Idealize.ShloMosaic.Init

noncomputable section

namespace Cert.Proof

open Idealize.ShloMosaic Idealize.ShloMosaic.ValueIdx Idealize.SL.Sem Cert.Nce

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The one rewrite of the idealization: the kernel's literal ten is named the exact reciprocal of the reference's
    temperature word, `1 / (13421773 / 2²⁷)`. -/
theorem preserves : Cert.preserves_Kernel_KernelIdeal :=
  IdealRules.named_const.statement Cert.KernelIdeal.κ "inv_tau" .f32 0x41200000#32 ((134217728 / 13421773 : ℝ) : EReal) rfl

/-- Under the precondition both idealized programs end with the mean, over the rows, of the row's loss at real
    features and prototypes and labels that are class numbers. -/
theorem algebraic : Cert.algebraic_KernelIdeal_ReferenceIdeal := by
  intro m ρ m' ρ' hpre hagree
  have HA : ∀ (c : Dev Cert.KernelIdeal.nD) (i : Cert.KernelIdeal.S262144x256.Idx),
      ∃ r : ℝ, m ((c.tc : Thread Cert.KernelIdeal.nD Cert.KernelIdeal.τ).loc Cert.KernelIdeal.main_arg0) i = ((r : ℝ) : EReal) :=
    fun c => (of_pre _ _ _ (hpre c)).1
  have HB : ∀ (c : Dev Cert.KernelIdeal.nD) (i : Cert.KernelIdeal.S64x256.Idx),
      ∃ r : ℝ, m ((c.tc : Thread Cert.KernelIdeal.nD Cert.KernelIdeal.τ).loc Cert.KernelIdeal.main_arg1) i = ((r : ℝ) : EReal) :=
    fun c => (of_pre _ _ _ (hpre c)).2.1
  have HC : ∀ (c : Dev Cert.KernelIdeal.nD) (i : Cert.KernelIdeal.S262144.Idx),
      ∃ l : Fin 64, m ((c.tc : Thread Cert.KernelIdeal.nD Cert.KernelIdeal.τ).loc Cert.KernelIdeal.main_arg2) i = BitVec.ofNat 32 l.val :=
    fun c => (of_pre _ _ _ (hpre c)).2.2
  choose X hX using HA
  choose Pr hPr using HB
  choose Lb hLb using HC
  refine ⟨fun c _ => meanOf fun b : Fin 262144 =>
      rowLoss (unitRow fun d => ((X c (ix2 b d) : ℝ) : EReal)) (fun k => unitRow fun d => ((Pr c (ix2 k d) : ℝ) : EReal)) (Lb c (ix1 b)),
    ?_, ?_⟩
  · refine (θ_run Cert.KernelIdeal.defs _ _).mono (fun r h c => ⟨?_, ?_, ?_, ?_⟩) (Cert.KernelIdeal.Gen.run_main m ρ)
    · refine ((h c).2 Cert.KernelIdeal.main_v17 (Pipeline.mem_restRefs_of Cert.KernelIdeal.main_v17 (by decide) (by decide))).trans ?_
      funext i
      exact kernel_value m c (fun b d => X c (ix2 b d)) (fun k d => Pr c (ix2 k d)) (fun b => Lb c (ix1 b))
        (fun b d => hX c (ix2 b d)) (fun k d => hPr c (ix2 k d)) (fun b => hLb c (ix1 b)) i
    · exact ((h c).1 0).trans (((Cert.KernelIdeal.Gen.dats m 0 c).arrAt_in 0 rfl _).trans
        ((Cert.KernelIdeal.Gen.A_eq m c 0).trans (Cert.KernelIdeal.Gen.V_main_arg0 m c)))
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
    · exact ((h c).2 Cert.KernelIdeal.main_arg2 (Pipeline.mem_restRefs_of Cert.KernelIdeal.main_arg2 (by decide) (by decide))).trans
        (Cert.KernelIdeal.Gen.W_main_arg2 m (Cert.KernelIdeal.Gen.dats m) c)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v34_eq, (hagree c).1, (hagree c).2.1, (hagree c).2.2]
    funext i
    refine (ref_value _ _ _ (fun b => Lb c (ix1 b)) (fun b => hLb c (ix1 b)) i).trans ?_
    have e0 : ∀ (b : Fin 262144) (d : Fin 256), m ((c.tc : Thread Cert.KernelIdeal.nD Cert.KernelIdeal.τ).loc Cert.KernelIdeal.main_arg0) (ix2 b d)
        = ((X c (ix2 b d) : ℝ) : EReal) := fun b d => hX c (ix2 b d)
    have e1 : ∀ (k : Fin 64) (d : Fin 256), m ((c.tc : Thread Cert.KernelIdeal.nD Cert.KernelIdeal.τ).loc Cert.KernelIdeal.main_arg1) (ix2 k d)
        = ((Pr c (ix2 k d) : ℝ) : EReal) := fun k d => hPr c (ix2 k d)
    simp only [e0, e1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
